-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x256x256 : Shape := ⟨4, ![4, 128, 256, 256]⟩
abbrev S_ : Shape := ⟨0, ![]⟩

class Facts : Prop where
  bcast_S_S4x128x256x256 : S_.BroadcastsInDim S4x128x256x256 (![] : Fin 0 → Fin S4x128x256x256.rank)
  reducesTo_S4x128x256x256_S_d0_1_2_3 : S4x128x256x256.ReducesTo [0, 1, 2, 3] S_
  h_S_ : 0 < S_.numel

variable [Facts]

def fn {F : FTy → Type} [FloatOps F] (main_arg0 : IVec S4x128x256x256 32) (main_arg1 : FVec F S4x128x256x256 .f32) : IVec S_ 1 :=
  let main_v0 : FVec F S4x128x256x256 .f32 := Host.absf main_arg1
  let main_cst : FVec F S_ .f32 := constant S_ .f32 0x7F800000#32
  let main_v1 : FVec F S4x128x256x256 .f32 := broadcastInDim S4x128x256x256 ![] bcast_S_S4x128x256x256 main_cst
  let main_v2 : IVec S4x128x256x256 1 := cmpf .olt main_v0 main_v1
  let main_c : IVec S_ 1 := constantI S_ 1 1#1
  let main_v3 : IVec S_ 1 := (fun x v => Host.reduce IntOp.andi x v reducesTo_S4x128x256x256_S_d0_1_2_3 h_S_) main_v2 main_c
  let main_c_0 : IVec S_ 32 := constantI S_ 32 0#32
  let main_v4 : IVec S4x128x256x256 32 := broadcastInDim S4x128x256x256 ![] bcast_S_S4x128x256x256 main_c_0
  let main_v5 : IVec S4x128x256x256 1 := cmpi .sge main_arg0 main_v4
  let main_c_1 : IVec S_ 32 := constantI S_ 32 5#32
  let main_v6 : IVec S4x128x256x256 32 := broadcastInDim S4x128x256x256 ![] bcast_S_S4x128x256x256 main_c_1
  let main_v7 : IVec S4x128x256x256 1 := cmpi .slt main_arg0 main_v6
  let main_v8 : IVec S4x128x256x256 1 := andi main_v5 main_v7
  let main_c_2 : IVec S_ 1 := constantI S_ 1 1#1
  let main_v9 : IVec S_ 1 := (fun x v => Host.reduce IntOp.andi x v reducesTo_S4x128x256x256_S_d0_1_2_3 h_S_) main_v8 main_c_2
  let main_v10 : IVec S_ 1 := andi main_v3 main_v9
  main_v10
-- ==== Kernel.lean ====
abbrev S4x128x256x256 : Shape := ⟨4, ![4, 128, 256, 256]⟩
abbrev S4x1x2x64x1x256x1x256 : Shape := ⟨8, ![4, 1, 2, 64, 1, 256, 1, 256]⟩
abbrev S4x2x1x1x1x64x256x256 : Shape := ⟨8, ![4, 2, 1, 1, 1, 64, 256, 256]⟩
abbrev S8x4194304 : Shape := ⟨2, ![8, 4194304]⟩
abbrev S8x6 : Shape := ⟨2, ![8, 6]⟩
abbrev S8x65536 : Shape := ⟨2, ![8, 65536]⟩
abbrev S8 : Shape := ⟨1, ![8]⟩
abbrev S8x1 : Shape := ⟨2, ![8, 1]⟩
abbrev S8x5 : Shape := ⟨2, ![8, 5]⟩
abbrev S_ : Shape := ⟨0, ![]⟩

abbrev nBuf : Space → Nat
  | .hbm => 46
  | .vmem => 12
  | .smem => 0
  | _ => 0

abbrev bufTy : (tb : Table) → Fin (tcTables nBuf tb) → BufTy
  | .hbm, ⟨0, _⟩ => ⟨S4x128x256x256, .i32⟩
  | .hbm, ⟨1, _⟩ => ⟨S4x128x256x256, .f32⟩
  | .hbm, ⟨2, _⟩ => ⟨S4x1x2x64x1x256x1x256, .i32⟩
  | .hbm, ⟨3, _⟩ => ⟨S4x2x1x1x1x64x256x256, .i32⟩
  | .hbm, ⟨4, _⟩ => ⟨S8x4194304, .i32⟩
  | .hbm, ⟨5, _⟩ => ⟨S4x1x2x64x1x256x1x256, .f32⟩
  | .hbm, ⟨6, _⟩ => ⟨S4x2x1x1x1x64x256x256, .f32⟩
  | .hbm, ⟨7, _⟩ => ⟨S8x4194304, .f32⟩
  | .hbm, ⟨8, _⟩ => ⟨S8x6, .f32⟩
  | .hbm, ⟨9, _⟩ => ⟨S8x5, .f32⟩
  | .hbm, ⟨10, _⟩ => ⟨S8x1, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .i1⟩
  | .hbm, ⟨15, _⟩ => ⟨S_, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .i1⟩
  | .hbm, ⟨23, _⟩ => ⟨S8x1, .f32⟩
  | .hbm, ⟨24, _⟩ => ⟨S8x5, .f32⟩
  | .hbm, ⟨25, _⟩ => ⟨S8x5, .f32⟩
  | .hbm, ⟨26, _⟩ => ⟨S_, .f32⟩
  | .hbm, ⟨27, _⟩ => ⟨S_, .f32⟩
  | .hbm, ⟨28, _⟩ => ⟨S8x5, .i1⟩
  | .hbm, ⟨29, _⟩ => ⟨S8x5, .f32⟩
  | .hbm, ⟨30, _⟩ => ⟨S8x5, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x5, .f32⟩
  | .hbm, ⟨35, _⟩ => ⟨S8x5, .f32⟩
  | .hbm, ⟨36, _⟩ => ⟨S_, .f32⟩
  | .hbm, ⟨37, _⟩ => ⟨S8x5, .f32⟩
  | .hbm, ⟨38, _⟩ => ⟨S8x5, .f32⟩
  | .hbm, ⟨39, _⟩ => ⟨S_, .f32⟩
  | .hbm, ⟨40, _⟩ => ⟨S8x5, .f32⟩
  | .hbm, ⟨41, _⟩ => ⟨S8x5, .f32⟩
  | .hbm, ⟨42, _⟩ => ⟨S8x4194304, .f32⟩
  | .hbm, ⟨43, _⟩ => ⟨S4x2x1x1x1x64x256x256, .f32⟩
  | .hbm, ⟨44, _⟩ => ⟨S4x1x2x64x1x256x1x256, .f32⟩
  | .hbm, ⟨45, _⟩ => ⟨S4x128x256x256, .f32⟩
  | .local _ .vmem, ⟨0, _⟩ => ⟨S8x65536, .i32⟩
  | .local _ .vmem, ⟨1, _⟩ => ⟨S8x65536, .i32⟩
  | .local _ .vmem, ⟨2, _⟩ => ⟨S8x65536, .f32⟩
  | .local _ .vmem, ⟨3, _⟩ => ⟨S8x65536, .f32⟩
  | .local _ .vmem, ⟨4, _⟩ => ⟨S8x6, .f32⟩
  | .local _ .vmem, ⟨5, _⟩ => ⟨S8x65536, .i32⟩
  | .local _ .vmem, ⟨6, _⟩ => ⟨S8x65536, .i32⟩
  | .local _ .vmem, ⟨7, _⟩ => ⟨S8x65536, .f32⟩
  | .local _ .vmem, ⟨8, _⟩ => ⟨S8x65536, .f32⟩
  | .local _ .vmem, ⟨9, _⟩ => ⟨S8x5, .f32⟩
  | .local _ .vmem, ⟨10, _⟩ => ⟨S8x65536, .f32⟩
  | .local _ .vmem, ⟨11, _⟩ => ⟨S8x65536, .f32⟩
  | _, _ => ⟨S4x128x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v19 : Ref sig .tc := ⟨.hbm, 30, rfl⟩
abbrev main_cst_3 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x65536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x65536 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x65536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x128x256x256_S4x1x2x64x1x256x1x256 : S4x128x256x256.ShapeCasts S4x1x2x64x1x256x1x256
  transposes_S4x1x2x64x1x256x1x256_S4x2x1x1x1x64x256x256_0_2_4_6_1_3_5_7 : S4x1x2x64x1x256x1x256.Transposes [0, 2, 4, 6, 1, 3, 5, 7] S4x2x1x1x1x64x256x256
  shapeCasts_S4x2x1x1x1x64x256x256_S8x4194304 : S4x2x1x1x1x64x256x256.ShapeCasts S8x4194304
  inb_S8x6_S8x6_0_0 : ∀ a, (![0, 0] : Fin 2 → Nat) a + S8x6.size a ≤ S8x6.size a
  h_S8x6 : 0 < S8x6.numel
  inb_S8x65536_S8x65536_0_0 : ∀ a, (![0, 0] : Fin 2 → Nat) a + S8x65536.size a ≤ S8x65536.size a
  h_S8x65536 : 0 < S8x65536.numel
  shapeCasts_S8x65536_S8x65536 : S8x65536.ShapeCasts S8x65536
  natLt_1_32 : 1 < 32
  reduces_S8x65536_S8 : S8x65536.Reduces [1] S8
  shapeCasts_S8_S8x1 : S8.ShapeCasts S8x1
  concatenates_S8x1_S8x1_S8x1_S8x1_S8x1_S8x1_S8x6_d1 : Shape.Concatenates [S8x1, S8x1, S8x1, S8x1, S8x1, S8x1] S8x6 1
  shapeCasts_S8x6_S8x6 : S8x6.ShapeCasts S8x6
  slices_S8x6_S8x5_0_0 : S8x6.Slices ![0, 0] S8x5
  slices_S8x6_S8x1_0_5 : S8x6.Slices ![0, 5] S8x1
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x5_0_1 : S8x1.BroadcastsInDim S8x5 (![0, 1] : Fin 2 → Fin S8x5.rank)
  bcast_S_S8x5 : S_.BroadcastsInDim S8x5 (![] : Fin 0 → Fin S8x5.rank)
  inb_S8x5_S8x5_0_0 : ∀ a, (![0, 0] : Fin 2 → Nat) a + S8x5.size a ≤ S8x5.size a
  h_S8x5 : 0 < S8x5.numel
  shapeCasts_S8x5_S8x5 : S8x5.ShapeCasts S8x5
  slices_S8x5_o0_0_S8x1 : S8x5.Slices ![0, 0] S8x1
  broadcasts_S8x1_S8x65536 : S8x1.Broadcasts S8x65536
  slices_S8x5_o0_1_S8x1 : S8x5.Slices ![0, 1] S8x1
  slices_S8x5_o0_2_S8x1 : S8x5.Slices ![0, 2] S8x1
  slices_S8x5_o0_3_S8x1 : S8x5.Slices ![0, 3] S8x1
  slices_S8x5_o0_4_S8x1 : S8x5.Slices ![0, 4] S8x1
  shapeCasts_S8x4194304_S4x2x1x1x1x64x256x256 : S8x4194304.ShapeCasts S4x2x1x1x1x64x256x256
  transposes_S4x2x1x1x1x64x256x256_S4x1x2x64x1x256x1x256_0_4_1_5_2_6_3_7 : S4x2x1x1x1x64x256x256.Transposes [0, 4, 1, 5, 2, 6, 3, 7] S4x1x2x64x1x256x1x256
  shapeCasts_S4x1x2x64x1x256x1x256_S4x128x256x256 : S4x1x2x64x1x256x1x256.ShapeCasts S4x128x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x65536.size a ≤ S8x4194304.size a
  hwx0_0 : ∀ i : grid0.Coords, EltTy.bits .i32 = 32 ∨ (Rect.block (s := S8x4194304) S8x65536.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x65536.size a ≤ S8x4194304.size a
  hwx0_1 : ∀ i : grid0.Coords, EltTy.bits .f32 = 32 ∨ (Rect.block (s := S8x4194304) S8x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x6.size a ≤ S8x6.size a
  hwx0_2 : ∀ i : grid0.Coords, EltTy.bits .f32 = 32 ∨ (Rect.block (s := S8x6) S8x6.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x65536.size a ≤ S8x4194304.size a
  hwx1_0 : ∀ i : grid1.Coords, EltTy.bits .i32 = 32 ∨ (Rect.block (s := S8x4194304) S8x65536.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x65536.size a ≤ S8x4194304.size a
  hwx1_1 : ∀ i : grid1.Coords, EltTy.bits .f32 = 32 ∨ (Rect.block (s := S8x4194304) S8x65536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x5.size a ≤ S8x5.size a
  hwx1_2 : ∀ i : grid1.Coords, EltTy.bits .f32 = 32 ∨ (Rect.block (s := S8x5) S8x5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x65536.size a ≤ S8x4194304.size a
  hwx1_3 : ∀ i : grid1.Coords, EltTy.bits .f32 = 32 ∨ (Rect.block (s := S8x4194304) S8x65536.size (cc1_transform_3 i) (hinb1_3 i)).WholeWords (EltTy.packing .f32)

variable [Facts₀]

abbrev win0_0 : Pipeline.Window sig grid0 :=
  Pipeline.Window.ofSpec (Memref.whole main_v2) S8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x6.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S8x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S8x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S8x65536.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x128x256x256 : Shape := ⟨4, ![4, 128, 256, 256]⟩
abbrev S4x1x2x64x1x256x1x256 : Shape := ⟨8, ![4, 1, 2, 64, 1, 256, 1, 256]⟩
abbrev S4x2x1x1x1x64x256x256 : Shape := ⟨8, ![4, 2, 1, 1, 1, 64, 256, 256]⟩
abbrev S8x4194304 : Shape := ⟨2, ![8, 4194304]⟩
abbrev S_ : Shape := ⟨0, ![]⟩
abbrev S8 : Shape := ⟨1, ![8]⟩
abbrev S8x1 : Shape := ⟨2, ![8, 1]⟩
abbrev S33554432 : Shape := ⟨1, ![33554432]⟩
abbrev S40 : Shape := ⟨1, ![40]⟩
abbrev S33554432x1 : Shape := ⟨2, ![33554432, 1]⟩
abbrev S8x5 : Shape := ⟨2, ![8, 5]⟩
abbrev S8x4194304x1 : Shape := ⟨3, ![8, 4194304, 1]⟩
abbrev S1 : Shape := ⟨1, ![1]⟩
abbrev S1x1x1 : Shape := ⟨3, ![1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S4x128x256x256, .i32⟩
  | .hbm, ⟨1, _⟩ => ⟨S4x128x256x256, .f32⟩
  | .hbm, ⟨2, _⟩ => ⟨S4x1x2x64x1x256x1x256, .i32⟩
  | .hbm, ⟨3, _⟩ => ⟨S4x2x1x1x1x64x256x256, .i32⟩
  | .hbm, ⟨4, _⟩ => ⟨S8x4194304, .i32⟩
  | .hbm, ⟨5, _⟩ => ⟨S4x1x2x64x1x256x1x256, .f32⟩
  | .hbm, ⟨6, _⟩ => ⟨S4x2x1x1x1x64x256x256, .f32⟩
  | .hbm, ⟨7, _⟩ => ⟨S8x4194304, .f32⟩
  | .hbm, ⟨8, _⟩ => ⟨S_, .f32⟩
  | .hbm, ⟨9, _⟩ => ⟨S8x4194304, .f32⟩
  | .hbm, ⟨10, _⟩ => ⟨S8x4194304, .i1⟩
  | .hbm, ⟨11, _⟩ => ⟨S8x4194304, .f32⟩
  | .hbm, ⟨12, _⟩ => ⟨S8, .i32⟩
  | .hbm, ⟨13, _⟩ => ⟨S8x1, .i32⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x4194304, .i32⟩
  | .hbm, ⟨18, _⟩ => ⟨S8x4194304, .i32⟩
  | .hbm, ⟨19, _⟩ => ⟨S33554432, .i32⟩
  | .hbm, ⟨20, _⟩ => ⟨S33554432, .f32⟩
  | .hbm, ⟨21, _⟩ => ⟨S_, .f32⟩
  | .hbm, ⟨22, _⟩ => ⟨S40, .f32⟩
  | .hbm, ⟨23, _⟩ => ⟨S33554432x1, .i32⟩
  | .hbm, ⟨24, _⟩ => ⟨S40, .f32⟩
  | .hbm, ⟨25, _⟩ => ⟨S8x5, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .i1⟩
  | .hbm, ⟨31, _⟩ => ⟨S_, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8x1, .f32⟩
  | .hbm, ⟨36, _⟩ => ⟨S_, .f32⟩
  | .hbm, ⟨37, _⟩ => ⟨S8x1, .f32⟩
  | .hbm, ⟨38, _⟩ => ⟨S8x1, .i1⟩
  | .hbm, ⟨39, _⟩ => ⟨S8x1, .f32⟩
  | .hbm, ⟨40, _⟩ => ⟨S8x5, .f32⟩
  | .hbm, ⟨41, _⟩ => ⟨S8x5, .f32⟩
  | .hbm, ⟨42, _⟩ => ⟨S_, .f32⟩
  | .hbm, ⟨43, _⟩ => ⟨S_, .f32⟩
  | .hbm, ⟨44, _⟩ => ⟨S8x5, .i1⟩
  | .hbm, ⟨45, _⟩ => ⟨S8x5, .f32⟩
  | .hbm, ⟨46, _⟩ => ⟨S8x5, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x5, .f32⟩
  | .hbm, ⟨51, _⟩ => ⟨S8x5, .f32⟩
  | .hbm, ⟨52, _⟩ => ⟨S_, .f32⟩
  | .hbm, ⟨53, _⟩ => ⟨S8x5, .f32⟩
  | .hbm, ⟨54, _⟩ => ⟨S8x5, .f32⟩
  | .hbm, ⟨55, _⟩ => ⟨S_, .f32⟩
  | .hbm, ⟨56, _⟩ => ⟨S8x5, .f32⟩
  | .hbm, ⟨57, _⟩ => ⟨S8x5, .f32⟩
  | .hbm, ⟨58, _⟩ => ⟨S_, .i32⟩
  | .hbm, ⟨59, _⟩ => ⟨S8x4194304, .i32⟩
  | .hbm, ⟨60, _⟩ => ⟨S8x4194304, .i1⟩
  | .hbm, ⟨61, _⟩ => ⟨S_, .i32⟩
  | .hbm, ⟨62, _⟩ => ⟨S8x4194304, .i32⟩
  | .hbm, ⟨63, _⟩ => ⟨S8x4194304, .i32⟩
  | .hbm, ⟨64, _⟩ => ⟨S8x4194304, .i32⟩
  | .hbm, ⟨65, _⟩ => ⟨S8x4194304x1, .i32⟩
  | .hbm, ⟨66, _⟩ => ⟨S1, .i32⟩
  | .hbm, ⟨67, _⟩ => ⟨S_, .i32⟩
  | .hbm, ⟨68, _⟩ => ⟨S8x4194304x1, .i32⟩
  | .hbm, ⟨69, _⟩ => ⟨S8x4194304x1, .i1⟩
  | .hbm, ⟨70, _⟩ => ⟨S1x1x1, .i32⟩
  | .hbm, ⟨71, _⟩ => ⟨S8x4194304x1, .i32⟩
  | .hbm, ⟨72, _⟩ => ⟨S8x4194304x1, .i1⟩
  | .hbm, ⟨73, _⟩ => ⟨S8x4194304x1, .i1⟩
  | .hbm, ⟨74, _⟩ => ⟨S_, .i1⟩
  | .hbm, ⟨75, _⟩ => ⟨S8x4194304, .i1⟩
  | .hbm, ⟨76, _⟩ => ⟨S8x4194304, .f32⟩
  | .hbm, ⟨77, _⟩ => ⟨S_, .f32⟩
  | .hbm, ⟨78, _⟩ => ⟨S8x4194304, .f32⟩
  | .hbm, ⟨79, _⟩ => ⟨S8x4194304, .f32⟩
  | .hbm, ⟨80, _⟩ => ⟨S8x4194304, .f32⟩
  | .hbm, ⟨81, _⟩ => ⟨S4x2x1x1x1x64x256x256, .f32⟩
  | .hbm, ⟨82, _⟩ => ⟨S4x1x2x64x1x256x1x256, .f32⟩
  | .hbm, ⟨83, _⟩ => ⟨S4x128x256x256, .f32⟩
  | _, _ => ⟨S4x128x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v31 : Ref sig .tc := ⟨.hbm, 46, rfl⟩
abbrev main_cst_6 : Ref sig .tc := ⟨.hbm, 47, rfl⟩
abbrev main_cst_7 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_cst : Ref sig .tc := ⟨.hbm, 77, rfl⟩
abbrev main_call3_v14 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩

abbrev nD : Nat := 1
abbrev τ : Topo := Topo.v7x

variable {F : FTy → Type} [FloatOps F]

class Facts₀ : Prop where
  shapeCasts_S4x128x256x256_S4x1x2x64x1x256x1x256 : S4x128x256x256.ShapeCasts S4x1x2x64x1x256x1x256
  transposes_S4x1x2x64x1x256x1x256_S4x2x1x1x1x64x256x256_0_2_4_6_1_3_5_7 : S4x1x2x64x1x256x1x256.Transposes [0, 2, 4, 6, 1, 3, 5, 7] S4x2x1x1x1x64x256x256
  shapeCasts_S4x2x1x1x1x64x256x256_S8x4194304 : S4x2x1x1x1x64x256x256.ShapeCasts S8x4194304
  bcast_S_S8x4194304 : S_.BroadcastsInDim S8x4194304 (![] : Fin 0 → Fin S8x4194304.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4194304_0_1 : S8x1.BroadcastsInDim S8x4194304 (![0, 1] : Fin 2 → Fin S8x4194304.rank)
  shapeCasts_S8x4194304_S33554432 : S8x4194304.ShapeCasts S33554432
  bcast_S_S40 : S_.BroadcastsInDim S40 (![] : Fin 0 → Fin S40.rank)
  bcast_S33554432_S33554432x1_0 : S33554432.BroadcastsInDim S33554432x1 (![0] : Fin 1 → Fin S33554432x1.rank)
  shapeCasts_S40_S8x5 : S40.ShapeCasts S8x5
  reducesTo_S8x4194304_S8_d1 : S8x4194304.ReducesTo [1] S8
  h_S_ : 0 < S_.numel
  bcast_S_S8 : S_.BroadcastsInDim S8 (![] : Fin 0 → Fin S8.rank)
  bcast_S8x1_S8x5_0_1 : S8x1.BroadcastsInDim S8x5 (![0, 1] : Fin 2 → Fin S8x5.rank)
  bcast_S_S8x5 : S_.BroadcastsInDim S8x5 (![] : Fin 0 → Fin S8x5.rank)
  shapeCasts_S8x4194304_S8x4194304x1 : S8x4194304.ShapeCasts S8x4194304x1
  bcast_S_S8x4194304x1 : S_.BroadcastsInDim S8x4194304x1 (![] : Fin 0 → Fin S8x4194304x1.rank)
  bcast_S1_S1x1x1_2 : S1.BroadcastsInDim S1x1x1 (![2] : Fin 1 → Fin S1x1x1.rank)
  bcast_S1x1x1_S8x4194304x1_0_1_2 : S1x1x1.BroadcastsInDim S8x4194304x1 (![0, 1, 2] : Fin 3 → Fin S8x4194304x1.rank)
  reducesTo_S8x4194304x1_S8x4194304_d2 : S8x4194304x1.ReducesTo [2] S8x4194304
  shapeCasts_S8x4194304_S4x2x1x1x1x64x256x256 : S8x4194304.ShapeCasts S4x2x1x1x1x64x256x256
  transposes_S4x2x1x1x1x64x256x256_S4x1x2x64x1x256x1x256_0_4_1_5_2_6_3_7 : S4x2x1x1x1x64x256x256.Transposes [0, 4, 1, 5, 2, 6, 3, 7] S4x1x2x64x1x256x1x256
  shapeCasts_S4x1x2x64x1x256x1x256_S4x128x256x256 : S4x1x2x64x1x256x1x256.ShapeCasts S4x128x256x256
  scatter_S40_S33554432x1_S33554432_n_0_0_1_wf : ScatterDims.WF S40 S33554432x1 S33554432 [] [0] [0] 1
  gather_S8x5_S8x4194304x1_S8x4194304_n_1_0_0_1_2_11_wf : GatherDims.WF S8x5 S8x4194304x1 S8x4194304 [] [1] [0] [1] [0] 2 ![1, 1]

variable [Facts₀]

def scatter_S40_S33554432x1_S33554432_n_0_0_1 : ScatterDims S40 S33554432x1 S33554432 where
  updateWindowDims := []
  insertedWindowDims := [0]
  scatterDimsToOperandDims := [0]
  indexVectorDim := 1
  wf := scatter_S40_S33554432x1_S33554432_n_0_0_1_wf
def gather_S8x5_S8x4194304x1_S8x4194304_n_1_0_0_1_2_11 : GatherDims S8x5 S8x4194304x1 S8x4194304 where
  offsetDims := []
  collapsedSliceDims := [1]
  operandBatchingDims := [0]
  startIndicesBatchingDims := [0]
  startIndexMap := [1]
  indexVectorDim := 2
  sliceSizes := ![1, 1]
  wf := gather_S8x5_S8x4194304x1_S8x4194304_n_1_0_0_1_2_11_wf

class Facts : Prop extends Facts₀ where

variable [Facts]
-- ==== Proof.Weights.lean ====
/-
  The weights as a function of the statistics, and the two re-layouts between the [4,128,256,256] volume and its 8 slabs
  of 4,194,304 voxels: the host operations both programs apply, each written once over literal shapes.
  `wts cnt ms`: per slab the class counts are divided by the mask sum where that sum is positive (by 1 elsewhere), set to 0
  where the sum is not positive, clipped to [0.05, 0.95], and 0.2 is divided by the result.
-/
import Idealize.ShloMosaic.PureOps
import Idealize.ShloMosaic.Lib.ValueIdx

noncomputable section

namespace Cert.Spec

open Idealize.ShloMosaic

variable {F : FTy → Type} [FloatOps F]

abbrev SVol : Shape := ⟨4, ![4, 128, 256, 256]⟩
abbrev SSplit : Shape := ⟨8, ![4, 1, 2, 64, 1, 256, 1, 256]⟩
abbrev SPerm : Shape := ⟨8, ![4, 2, 1, 1, 1, 64, 256, 256]⟩
abbrev SSlab : Shape := ⟨2, ![8, 4194304]⟩
abbrev S0 : Shape := ⟨0, ![]⟩
abbrev S8 : Shape := ⟨1, ![8]⟩
abbrev S8x1 : Shape := ⟨2, ![8, 1]⟩
abbrev S8x5 : Shape := ⟨2, ![8, 5]⟩
abbrev S8x6 : Shape := ⟨2, ![8, 6]⟩

/-- The volume cut into its 8 slabs: split axis 1 into 2 × 64, bring the block coordinates to the front, flatten. -/
def toSlabs {α : Type} (x : SVol.Idx → α) : SSlab.Idx → α :=
  shapeCast SSlab (transpose SPerm [0, 2, 4, 6, 1, 3, 5, 7] (shapeCast SSplit x (by decide)) (by decide)) (by decide)

/-- The inverse re-layout, from the 8 slabs back to the volume. -/
def fromSlabs {α : Type} (y : SSlab.Idx → α) : SVol.Idx → α :=
  shapeCast SVol (transpose SSplit [0, 4, 1, 5, 2, 6, 3, 7] (shapeCast SPerm y (by decide)) (by decide)) (by decide)

/-- The class-count columns of the statistics table. -/
def countsOf {α : Type} (st : S8x6.Idx → α) : S8x5.Idx → α := extractStridedSlice S8x5 ![0, 0] st (by decide)
/-- The mask-sum column of the statistics table, as a vector over the slabs. -/
def msumOf {α : Type} (st : S8x6.Idx → α) : S8.Idx → α :=
  shapeCast S8 (extractStridedSlice S8x1 ![0, 5] st (by decide)) (by decide)

/-- The weights from the class counts and the mask sums. -/
def wts (cnt : FVec F S8x5 .f32) (ms : FVec F S8 .f32) : FVec F S8x5 .f32 :=
  let zero8 : FVec F S8 .f32 := broadcastInDim S8 ![] (by decide) (constant S0 .f32 0x00000000#32)
  let denom : FVec F S8 .f32 :=
    select (cmpf .ogt ms zero8) ms (broadcastInDim S8 ![] (by decide) (constant S0 .f32 0x3F800000#32))
  let okCol : IVec S8x1 1 :=
    cmpf .ogt (broadcastInDim S8x1 ![0] (by decide) ms) (broadcastInDim S8x1 ![] (by decide) (constant S0 .f32 0x00000000#32))
  let quot : FVec F S8x5 .f32 :=
    Host.divf cnt (broadcastInDim S8x5 ![0, 1] (by decide) (broadcastInDim S8x1 ![0] (by decide) denom))
  let fracs : FVec F S8x5 .f32 :=
    select (broadcastInDim S8x5 ![0, 1] (by decide) okCol) quot
      (broadcastInDim S8x5 ![] (by decide) (constant S0 .f32 0x00000000#32))
  let clipped : FVec F S8x5 .f32 :=
    minimumf (broadcastInDim S8x5 ![] (by decide) (constant S0 .f32 0x3F733333#32))
      (maximumf (broadcastInDim S8x5 ![] (by decide) (constant S0 .f32 0x3D4CCCCD#32)) fracs)
  Host.divf (broadcastInDim S8x5 ![] (by decide) (constant S0 .f32 0x3E4CCCCD#32)) clipped

end Cert.Spec

end
-- ==== Proof.HostFold.lean ====
/-
  The kernel program's buffers at each boundary of @main, read back to the arguments: the two slab arrays the passes
  are entered with are the re-laid arguments, the statistics table is what the first pass leaves, the weight table is
  `wts` of its columns, and the result is the second pass's array laid back into the volume.
-/
import proofs.«419271_j77180562309196_1_alg».proof.Proof.Gen.KernelIdeal.Frame
import proofs.«419271_j77180562309196_1_alg».proof.Proof.Weights
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- A buffer that none of a stretch's operations writes keeps its contents across the stretch. -/
local macro "kept_across" : tactic =>
  `(tactic| (refine StableHlo.after_of_forall_not_mem _ _ (List.forall_iff_forall_mem.mp ?_)
             simp only [hostOps1, hostOps1_1, hostOps1_2, hostOps1_3, hostOps1_4, hostOps1_5, hostOps1_6, List.Forall,
               StableHlo.nullary_writes, StableHlo.unary_writes, StableHlo.binary_writes, StableHlo.ternary_writes,
               StableHlo.reshape_writes, Finset.mem_singleton]
             repeat' apply And.intro
             all_goals exact StableHlo.devRef_ne_of_ne (by decide)))

/-- The labels' slab array at the first pass's entry is the re-laid labels. -/
theorem V1_v2 (c : Dev nD) :
    (V1 m ρ c main_v2 : IVec S8x4194304 32) = Cert.Spec.toSlabs (m ((c : Thread nD τ).loc main_arg0)) := by
  dsimp only [V1, W1, W0, hostOps0]
  after_results
  rfl

/-- The mask's slab array at the first pass's entry is the re-laid mask. -/
theorem V1_v5 (c : Dev nD) :
    (V1 m ρ c main_v5 : FVec F S8x4194304 .f32) = Cert.Spec.toSlabs (m ((c : Thread nD τ).loc main_arg1)) := by
  dsimp only [V1, W1, W0, hostOps0]
  after_results
  rfl

/-- The first pass leaves its input arrays as it found them, and the statistics table at what its write-back leaves. -/
theorem W2_v2 (c : Dev nD) : W2 m ρ c (Proc.devRef .tc main_v2) = V1 m ρ c main_v2 :=
  (W2_arr m ρ c 0).trans (((dat0 (V1 m ρ) c).arrAt_in 0 rfl _).trans (A_eq0 (V1 m ρ) c 0))
theorem W2_v5 (c : Dev nD) : W2 m ρ c (Proc.devRef .tc main_v5) = V1 m ρ c main_v5 :=
  (W2_arr m ρ c 1).trans (((dat0 (V1 m ρ) c).arrAt_in 1 rfl _).trans (A_eq0 (V1 m ρ) c 1))
theorem W2_v6 (c : Dev nD) : W2 m ρ c (Proc.devRef .tc main_v6) = (dat0 (V1 m ρ) c).arrAt 2 cfg0.N :=
  W2_arr m ρ c 2

/-- The host operations between the passes write neither slab array. -/
theorem V9_v2 (c : Dev nD) : V9 m ρ c main_v2 = V1 m ρ c main_v2 :=
  calc W9 m ρ c (Proc.devRef .tc main_v2)
    _ = W8 m ρ c (Proc.devRef .tc main_v2) := by kept_across
    _ = W7 m ρ c (Proc.devRef .tc main_v2) := by kept_across
    _ = W6 m ρ c (Proc.devRef .tc main_v2) := by kept_across
    _ = W5 m ρ c (Proc.devRef .tc main_v2) := by kept_across
    _ = W4 m ρ c (Proc.devRef .tc main_v2) := by kept_across
    _ = W3 m ρ c (Proc.devRef .tc main_v2) := by kept_across
    _ = W2 m ρ c (Proc.devRef .tc main_v2) := by kept_across
    _ = V1 m ρ c main_v2 := W2_v2 m ρ c
theorem V9_v5 (c : Dev nD) : V9 m ρ c main_v5 = V1 m ρ c main_v5 :=
  calc W9 m ρ c (Proc.devRef .tc main_v5)
    _ = W8 m ρ c (Proc.devRef .tc main_v5) := by kept_across
    _ = W7 m ρ c (Proc.devRef .tc main_v5) := by kept_across
    _ = W6 m ρ c (Proc.devRef .tc main_v5) := by kept_across
    _ = W5 m ρ c (Proc.devRef .tc main_v5) := by kept_across
    _ = W4 m ρ c (Proc.devRef .tc main_v5) := by kept_across
    _ = W3 m ρ c (Proc.devRef .tc main_v5) := by kept_across
    _ = W2 m ρ c (Proc.devRef .tc main_v5) := by kept_across
    _ = V1 m ρ c main_v5 := W2_v5 m ρ c

set_option maxHeartbeats 1000000 in
/-- The host operations between the passes, from any contents: the weight table is `wts` of the statistics table's
    count columns and mask-sum column. -/
theorem between_eq (V : Valuation τ sig (Elt F)) :
    (after hostOps1_6 (after hostOps1_5 (after hostOps1_4 (after hostOps1_3 (after hostOps1_2 (after hostOps1_1 (after hostOps1 V))))))
        (Proc.devRef .tc main_v22) : FVec F S8x5 .f32)
      = Cert.Spec.wts (Cert.Spec.countsOf (V (Proc.devRef .tc main_v6) : FVec F S8x6 .f32))
          (Cert.Spec.msumOf (V (Proc.devRef .tc main_v6) : FVec F S8x6 .f32)) := by
  dsimp only [hostOps1, hostOps1_1, hostOps1_2, hostOps1_3, hostOps1_4, hostOps1_5, hostOps1_6]
  after_results_simp
  simp only [TRef.ofBuf, TRef.toBuf, cast_eq, id_eq]
  rfl

/-- The weight table at the second pass's entry, from the statistics table the first pass left. -/
theorem V9_v22 (c : Dev nD) :
    (V9 m ρ c main_v22 : FVec F S8x5 .f32)
      = Cert.Spec.wts (Cert.Spec.countsOf ((dat0 (V1 m ρ) c).arrAt 2 cfg0.N : FVec F S8x6 .f32))
          (Cert.Spec.msumOf ((dat0 (V1 m ρ) c).arrAt 2 cfg0.N : FVec F S8x6 .f32)) :=
  (between_eq (W2 m ρ c)).trans (by rw [W2_v6])

/-- The host operations after the second pass, from any contents: the result is the pass's array laid back. -/
theorem tail_eq (V : Valuation τ sig (Elt F)) :
    (after hostOps2 V (Proc.devRef .tc main_v26) : FVec F S4x128x256x256 .f32)
      = Cert.Spec.fromSlabs (V (Proc.devRef .tc main_v23) : FVec F S8x4194304 .f32) := by
  dsimp only [hostOps2]
  after_results
  rfl

/-- The result buffer at the end of @main is the second pass's result array laid back into the volume. -/
theorem W11_v26 (c : Dev nD) :
    (W11 m ρ c (Proc.devRef .tc main_v26) : FVec F S4x128x256x256 .f32)
      = Cert.Spec.fromSlabs ((dat1 (V9 m ρ) c).arrAt 3 cfg1.N : FVec F S8x4194304 .f32) :=
  (tail_eq (W10 m ρ c)).trans (by rw [W10_arr m ρ c 3])

end Cert.KernelIdeal.Fold

end
-- ==== Proof.Spec.lean ====
/-
  The mathematics both programs compute, over the slab layout: an array of 8 slabs of 4,194,304 voxels each.
  Per slab s: for each class k < 5 the number of voxels of class k whose mask value is positive (`cnt`), and the
  sum of the slab's mask values (`msum`); the weights are a fixed function of those six numbers per slab; the
  result at a voxel is its mask value times the weight of its own class in its own slab.
  This module names those quantities index by index on the extended reals; it imports no program.
-/
import Idealize.ShloMosaic.PureOps.Ideal
import Idealize.ShloMosaic.Lib.ValueIdx

noncomputable section

namespace Cert.Spec

open Idealize.ShloMosaic Idealize.ShloMosaic.ValueIdx
open scoped BigOperators

/-- The slab layout: 8 slabs of 4,194,304 voxels. -/
abbrev SP : Shape := ⟨2, ![8, 4194304]⟩
/-- The statistics table: per slab five class counts and the mask sum. -/
abbrev S86 : Shape := ⟨2, ![8, 6]⟩
/-- The weight table: per slab one weight per class. -/
abbrev S85 : Shape := ⟨2, ![8, 5]⟩

/-- `1` where a mask value is positive, `0` elsewhere. -/
def pos (x : EReal) : EReal := if 0 < x then 1 else 0

/-- `1` where a label word is the class `k`, `0` elsewhere. -/
def hit (l : BitVec 32) (k : ℕ) : EReal := if l = BitVec.ofNat 32 k then 1 else 0

/-- Slab `s`'s count of class `k` among the voxels whose mask value is positive. -/
def cnt (L : IVec SP 32) (M : FVec Ideal SP .f32) (s : Fin 8) (k : ℕ) : EReal :=
  ∑ p : Fin 4194304, pos (M (ix2 s p)) * hit (L (ix2 s p)) k

/-- Slab `s`'s sum of mask values. -/
def msum (M : FVec Ideal SP .f32) (s : Fin 8) : EReal := ∑ p : Fin 4194304, M (ix2 s p)

/-- The statistics table: columns 0 to 4 the class counts, column 5 the mask sum. -/
def stats (L : IVec SP 32) (M : FVec Ideal SP .f32) : FVec Ideal S86 .f32 := fun j =>
  if (j 1).val < 5 then cnt L M ⟨(j 0).val, idx2_lt0 j⟩ (j 1).val else msum M ⟨(j 0).val, idx2_lt0 j⟩

/-- A voxel's weight as the second pass forms it: the five class indicators of its label times the five weights
    of its slab, added in class order onto zero. -/
def look (w : FVec Ideal S85 .f32) (l : BitVec 32) (s : Fin 8) : EReal :=
  ((((0 + hit l 0 * w (ix2 s (0 : Fin 5))) + hit l 1 * w (ix2 s (1 : Fin 5))) + hit l 2 * w (ix2 s (2 : Fin 5)))
    + hit l 3 * w (ix2 s (3 : Fin 5))) + hit l 4 * w (ix2 s (4 : Fin 5))

/-- The result over the slab layout: each voxel's mask value times its weight. -/
def outS (L : IVec SP 32) (M : FVec Ideal SP .f32) (w : FVec Ideal S85 .f32) : FVec Ideal SP .f32 := fun j =>
  M j * look w (L j) ⟨(j 0).val, idx2_lt0 j⟩

/-- For a label in the class range the indicator sum picks that class's weight: the other four products are
    `0 · w = 0` on the extended reals whatever `w` is. -/
theorem look_eq (w : FVec Ideal S85 .f32) (l : BitVec 32) (s : Fin 8) (h : l.toNat < 5) :
    look w l s = w (ix2 s (⟨l.toNat, h⟩ : Fin 5)) := by
  have hl : l = BitVec.ofNat 32 l.toNat := by simp
  unfold look hit
  have h5 : l.toNat = 0 ∨ l.toNat = 1 ∨ l.toNat = 2 ∨ l.toNat = 3 ∨ l.toNat = 4 := by omega
  rcases h5 with h0 | h0 | h0 | h0 | h0
  all_goals
    have e : l = BitVec.ofNat 32 _ := h0 ▸ hl
    subst e
    simp (decide := true) only [BitVec.toNat_ofNat, if_true, if_false, one_mul, zero_mul, add_zero, zero_add, Nat.reduceMod,
      Nat.reducePow]
    first | rfl | (congr 1)

end Cert.Spec

end
-- ==== Proof.Hist.lean ====
/-
  The first pass's result: after its 64 grid points the statistics table holds, per slab, the five masked class counts and the mask sum over the whole slab (the per-tile partial sums added up in point order from the zero table).
-/
import proofs.«419271_j77180562309196_1_alg».proof.Proof.Gen.KernelIdeal.Frame
import proofs.«419271_j77180562309196_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.HistValue

open Cert.KernelIdeal Cert.KernelIdeal.Gen

variable (V : (c : Dev nD) → (b : Ref sig .tc) → Buf (Elt Ideal) ((c : Thread nD τ).loc b))

/-- The zero offsets. -/
theorem hz : (![0, 0] : Fin 2 → Nat) = fun _ => 0 := funext fun a => by fin_cases a <;> rfl

/-- A later point's step: the table the point before left, plus the staged tile's contribution. -/
theorem out_B {F : FTy → Type} [FloatOps F] (c : Dev nD) (i : grid0.Coords) (a1 : Memref sig .tc .vmem S8x65536 .i32) (h1 : a1.IsWhole)
    (a2 : Memref sig .tc .vmem S8x65536 .f32) (h2 : a2.IsWhole) (a3 : Memref sig .tc .vmem S8x6 .f32) (h3 : a3.IsWhole) (hc : ¬cond0_0 i)
    (x0 : Vec F S8x65536 .i32) (x1 : Vec F S8x65536 .f32) (xo : Vec F S8x6 .f32) :
    out0_B_2 c i a1 h1 a2 h2 a3 h3 hc x0 x1 xo
      = k0_pay1 (k0_pay4 x1) (k0_pay5 x1) (k0_pay6 x0 x1) (k0_pay7 x0 x1) (k0_pay8 x0 x1) (k0_pay9 x0 x1) (k0_pay10 x0) xo := by
  unfold out0_B_2
  rw [View.read_writes_eq_canon _ _ _ (cover0_B_2 c i a1 h1 a2 h2 a3 h3 hc x0 x1 xo)]
  unfold kernelRun0_B
  dsimp only
  rw [View.canon_unit_zero hz]
  sl_unfold_words
  simp only [View.readAt_eq_ld, h1.read_unread, h2.read_unread, h3.read_unread, View.ld_unit_zero (S := S8x65536) hz,
    View.ld_unit_zero (S := S8x6) hz]

/-- The first point's step: the zero table, plus the staged tile's contribution. -/
theorem out_A {F : FTy → Type} [FloatOps F] (c : Dev nD) (i : grid0.Coords) (a1 : Memref sig .tc .vmem S8x65536 .i32) (h1 : a1.IsWhole)
    (a2 : Memref sig .tc .vmem S8x65536 .f32) (h2 : a2.IsWhole) (a3 : Memref sig .tc .vmem S8x6 .f32) (h3 : a3.IsWhole) (hc : cond0_0 i)
    (x0 : Vec F S8x65536 .i32) (x1 : Vec F S8x65536 .f32) :
    out0_A_2 c i a1 h1 a2 h2 a3 h3 hc x0 x1
      = k0_pay1 (k0_pay4 x1) (k0_pay5 x1) (k0_pay6 x0 x1) (k0_pay7 x0 x1) (k0_pay8 x0 x1) (k0_pay9 x0 x1) (k0_pay10 x0) (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S8x6) hz, View.readCov_unit_zero (S := S8x6) _ hz]
  simp only [View.readAt_eq_ld, h1.read_unread, h2.read_unread, View.ld_unit_zero (S := S8x65536) hz]

/-- A bit read as a signed 32-bit word and converted: `1` for true, `0` for false. -/
theorem sitofp_bit (b : Bool) :
    FloatOps.sitofp (F := Ideal) .f32 ((BitVec.ofBool b).setWidth 32) = if b then (1 : EReal) else 0 := by
  show (((((BitVec.ofBool b).setWidth 32).toInt : ℤ) : ℝ) : EReal) = _
  cases b
  · rw [show ((BitVec.ofBool false).setWidth 32).toInt = 0 from by decide]; simp
  · rw [show ((BitVec.ofBool true).setWidth 32).toInt = 1 from by decide]; simp

/-- The positive-mask indicator of a tile, at an index. -/
theorem inmask_apply (x1 : Vec Ideal S8x65536 .f32) (i : S8x65536.Idx) :
    k0_pay5 (F := Ideal) x1 i = Cert.Spec.pos (x1 i) := by
  unfold k0_pay5 k0_pay4
  rw [shapeCast_self]
  show FloatOps.sitofp (F := Ideal) .f32 ((Ideal.cmp .ogt (x1 i) (Ideal.ofBits .f32 0x00000000#32)).setWidth 32) = _
  rw [Ideal.ofBits_zero_f32]
  unfold Ideal.cmp Cert.Spec.pos
  rw [sitofp_bit]
  by_cases h : (0 : EReal) < x1 i
  · simp [h]
  · simp [h]

/-- The class indicator of a tile's labels, at an index. -/
theorem match_apply (x0 : Vec Ideal S8x65536 .i32) (k : ℕ) (i : S8x65536.Idx) :
    (sitofp (F := Ideal) .f32 (extui 32 (cmpi .eq (k0_pay3 (F := Ideal) x0) (broadcast S8x65536 (BitVec.ofNat 32 k))) natLt_1_32) : FVec Ideal S8x65536 .f32) i
      = Cert.Spec.hit (x0 i) k := by
  unfold k0_pay3
  rw [shapeCast_self]
  show FloatOps.sitofp (F := Ideal) .f32 ((BitVec.ofBool (x0 i == BitVec.ofNat 32 k)).setWidth 32) = _
  rw [sitofp_bit]
  unfold Cert.Spec.hit
  by_cases h : x0 i = BitVec.ofNat 32 k
  · simp [h]
  · simp [h]

/-- A tile's row sums kept as a column: the entry of row `s` is the sum of the row. -/
theorem rowsum_apply (v : FVec Ideal S8x65536 .f32) (s : Fin 8) (u : Fin 1) :
    shapeCast S8x1 (multiReduction (F := Ideal) .add [1] S8 v 0x00000000#32 reduces_S8x65536_S8 (.inl rfl) rfl) shapeCasts_S8_S8x1 (ix2 s u)
      = ∑ p : Fin 65536, v (ix2 s p) := by
  refine (shapeCast_apply _ _ _ (ix1 s) ?_).trans ?_
  · rw [Shape.rowMajor_val_one, Shape.rowMajor_val_two]
    show s.val = s.val * 1 + u.val
    omega
  · refine (Ideal.multiReduction_add_single v _ reduces_S8x65536_S8 (.inl rfl) rfl (ix1 s)).trans ?_
    refine Finset.sum_congr rfl fun p _ => congrArg v ?_
    funext a
    match a with
    | ⟨0, _⟩ => rfl
    | ⟨1, _⟩ => rfl

/-- Six columns laid side by side, read at column `j`: column `j`'s entry of the same row. -/
theorem cols_apply {α : Type} (f : Fin 6 → (S8x1.Idx → α)) (s : Fin 8) (j : Fin 6) :
    concatenate S8x6 1 [⟨S8x1, f 0⟩, ⟨S8x1, f 1⟩, ⟨S8x1, f 2⟩, ⟨S8x1, f 3⟩, ⟨S8x1, f 4⟩, ⟨S8x1, f 5⟩]
      concatenates_S8x1_S8x1_S8x1_S8x1_S8x1_S8x1_S8x6_d1 (ix2 s j) = f j (ix2 s (0 : Fin 1)) := by
  refine concatenate_ofFn_unit_apply (t := S8x6) (s₁ := S8x1) 1 f _ rfl rfl (ix2 s j) j rfl (ix2 s (0 : Fin 1)) ?_
  intro b hb
  match b with
  | ⟨0, _⟩ => rfl
  | ⟨1, _⟩ => exact absurd rfl hb

/-- Six columns laid side by side, read at column `j`. -/
theorem cols6_apply {α : Type} (v0 v1 v2 v3 v4 v5 : S8x1.Idx → α) (s : Fin 8) (j : Fin 6) :
    concatenate S8x6 1 [⟨S8x1, v0⟩, ⟨S8x1, v1⟩, ⟨S8x1, v2⟩, ⟨S8x1, v3⟩, ⟨S8x1, v4⟩, ⟨S8x1, v5⟩]
      concatenates_S8x1_S8x1_S8x1_S8x1_S8x1_S8x1_S8x6_d1 (ix2 s j) = (![v0, v1, v2, v3, v4, v5] j) (ix2 s (0 : Fin 1)) :=
  cols_apply ![v0, v1, v2, v3, v4, v5] s j

/-- One tile's contribution to the table: per row the five masked class counts and the mask sum over the tile. -/
def tileStat (x0 : Vec Ideal S8x65536 .i32) (x1 : Vec Ideal S8x65536 .f32) (s : Fin 8) (j : Fin 6) : EReal :=
  if j.val < 5 then ∑ p : Fin 65536, Cert.Spec.pos (x1 (ix2 s p)) * Cert.Spec.hit (x0 (ix2 s p)) j.val
  else ∑ p : Fin 65536, x1 (ix2 s p)

/-- A class column of a tile: the masked count of class `k` per row. -/
theorem classcol_apply (x0 : Vec Ideal S8x65536 .i32) (x1 : Vec Ideal S8x65536 .f32) (k : ℕ) (s : Fin 8) (u : Fin 1) :
    shapeCast S8x1 (multiReduction (F := Ideal) .add [1] S8
        (mulf (k0_pay5 (F := Ideal) x1) (sitofp (F := Ideal) .f32 (extui 32 (cmpi .eq (k0_pay3 (F := Ideal) x0) (broadcast S8x65536 (BitVec.ofNat 32 k))) natLt_1_32)))
        0x00000000#32 reduces_S8x65536_S8 (.inl rfl) rfl) shapeCasts_S8_S8x1 (ix2 s u)
      = ∑ p : Fin 65536, Cert.Spec.pos (x1 (ix2 s p)) * Cert.Spec.hit (x0 (ix2 s p)) k := by
  rw [rowsum_apply]
  refine Finset.sum_congr rfl fun p _ => ?_
  rw [mulf_apply, inmask_apply, match_apply x0 k]

/-- The table after one accumulation step, at an entry: what was there plus the tile's contribution. -/
theorem pay1_apply (x0 : Vec Ideal S8x65536 .i32) (x1 : Vec Ideal S8x65536 .f32) (xo : Vec Ideal S8x6 .f32) (s : Fin 8) (j : Fin 6) :
    k0_pay1 (F := Ideal) (k0_pay4 x1) (k0_pay5 x1) (k0_pay6 x0 x1) (k0_pay7 x0 x1) (k0_pay8 x0 x1) (k0_pay9 x0 x1) (k0_pay10 x0) xo (ix2 s j)
      = xo (ix2 s j) + tileStat x0 x1 s j := by
  unfold k0_pay1
  show addf (shapeCast S8x6 xo shapeCasts_S8x6_S8x6) (concatenate S8x6 1 [⟨S8x1, k0_pay6 x0 x1⟩, ⟨S8x1, k0_pay7 x0 x1⟩, ⟨S8x1, k0_pay8 x0 x1⟩, ⟨S8x1, k0_pay9 x0 x1⟩,
      ⟨S8x1, shapeCast S8x1 (multiReduction (F := Ideal) .add [1] S8 (mulf (k0_pay5 x1) (sitofp .f32 (k0_pay10 x0))) 0x00000000#32 reduces_S8x65536_S8 (.inl rfl) rfl) shapeCasts_S8_S8x1⟩,
      ⟨S8x1, shapeCast S8x1 (multiReduction (F := Ideal) .add [1] S8 (k0_pay4 x1) 0x00000000#32 reduces_S8x65536_S8 (.inl rfl) rfl) shapeCasts_S8_S8x1⟩]
      concatenates_S8x1_S8x1_S8x1_S8x1_S8x1_S8x1_S8x6_d1) (ix2 s j) = _
  rw [shapeCast_self, addf_apply, cols6_apply]
  refine congrArg (xo (ix2 s j) + ·) ?_
  unfold tileStat
  match j with
  | ⟨0, _⟩ => exact (classcol_apply x0 x1 0 s 0).trans (if_pos (show (0 : ℕ) < 5 by decide)).symm
  | ⟨1, _⟩ => exact (classcol_apply x0 x1 1 s 0).trans (if_pos (show (1 : ℕ) < 5 by decide)).symm
  | ⟨2, _⟩ => exact (classcol_apply x0 x1 2 s 0).trans (if_pos (show (2 : ℕ) < 5 by decide)).symm
  | ⟨3, _⟩ => exact (classcol_apply x0 x1 3 s 0).trans (if_pos (show (3 : ℕ) < 5 by decide)).symm
  | ⟨4, _⟩ => exact (classcol_apply x0 x1 4 s 0).trans (if_pos (show (4 : ℕ) < 5 by decide)).symm
  | ⟨5, _⟩ =>
    refine Eq.trans ?_ (if_neg (show ¬(5 : ℕ) < 5 by decide)).symm
    show shapeCast S8x1 (multiReduction (F := Ideal) .add [1] S8 (k0_pay4 x1) 0x00000000#32 reduces_S8x65536_S8 (.inl rfl) rfl) shapeCasts_S8_S8x1 (ix2 s (0 : Fin 1)) = _
    rw [rowsum_apply]
    unfold k0_pay4
    rw [shapeCast_self]

/-- The label window's block index at point `t` is `(0, t)`. -/
theorem idx0 : ∀ t : Fin grid0.N, win0_0.index t 0 = 0 ∧ win0_0.index t 1 = t.val := by decide +kernel
/-- The mask window's block index at point `t` is `(0, t)`. -/
theorem idx1 : ∀ t : Fin grid0.N, win0_1.index t 0 = 0 ∧ win0_1.index t 1 = t.val := by decide +kernel

/-- The label window's block at point `t` is tile `t` of the label array. -/
theorem blk0_apply (c : Dev nD) (t : Fin cfg0.N) (s : Fin 8) (p : Fin 65536) (h : t.val * 65536 + p.val < 4194304) :
    (iblk0 V c 0 t : Vec Ideal S8x65536 .i32) (ix2 s p) = (V c main_v2 : IVec Cert.Spec.SP 32) (ix2 s ⟨t.val * 65536 + p.val, h⟩) := by
  have hi := idx0 t
  unfold iblk0
  rw [View.read_apply]
  show V c main_v2 _ = V c main_v2 _
  refine congrArg (V c main_v2) ?_
  funext a
  apply Fin.ext
  match a with
  | ⟨0, _⟩ => show win0_0.index t 0 * 8 + 1 * s.val = s.val; rw [hi.1]; omega
  | ⟨1, _⟩ => show win0_0.index t 1 * 65536 + 1 * p.val = t.val * 65536 + p.val; rw [hi.2]; omega

/-- The mask window's block at point `t` is tile `t` of the mask array. -/
theorem blk1_apply (c : Dev nD) (t : Fin cfg0.N) (s : Fin 8) (p : Fin 65536) (h : t.val * 65536 + p.val < 4194304) :
    (iblk0 V c 1 t : Vec Ideal S8x65536 .f32) (ix2 s p) = (V c main_v5 : FVec Ideal Cert.Spec.SP .f32) (ix2 s ⟨t.val * 65536 + p.val, h⟩) := by
  have hi := idx1 t
  unfold iblk0
  rw [View.read_apply]
  show V c main_v5 _ = V c main_v5 _
  refine congrArg (V c main_v5) ?_
  funext a
  apply Fin.ext
  match a with
  | ⟨0, _⟩ => show win0_1.index t 0 * 8 + 1 * s.val = s.val; rw [hi.1]; omega
  | ⟨1, _⟩ => show win0_1.index t 1 * 65536 + 1 * p.val = t.val * 65536 + p.val; rw [hi.2]; omega

/-- A slab's label word at a voxel number (the zero word past the slab's end). -/
def labAt (L : IVec Cert.Spec.SP 32) (s : Fin 8) (q : ℕ) : BitVec 32 :=
  if h : q < 4194304 then L (ix2 s ⟨q, h⟩) else 0#32

/-- A slab's mask value at a voxel number (zero past the slab's end). -/
def mskAt (M : FVec Ideal Cert.Spec.SP .f32) (s : Fin 8) (q : ℕ) : EReal :=
  if h : q < 4194304 then M (ix2 s ⟨q, h⟩) else 0

/-- Tile `t`'s contribution to the table, over the whole slab arrays. -/
def part (L : IVec Cert.Spec.SP 32) (M : FVec Ideal Cert.Spec.SP .f32) (t : ℕ) (s : Fin 8) (j : Fin 6) : EReal :=
  if j.val < 5 then
    ∑ p : Fin 65536, Cert.Spec.pos (mskAt M s (t * 65536 + p.val)) * Cert.Spec.hit (labAt L s (t * 65536 + p.val)) j.val
  else ∑ p : Fin 65536, mskAt M s (t * 65536 + p.val)

/-- The contribution of the blocks staged at point `t` is tile `t`'s. -/
theorem tileStat_blk (c : Dev nD) (t : Fin cfg0.N) (s : Fin 8) (j : Fin 6) :
    tileStat (iblk0 V c 0 t) (iblk0 V c 1 t) s j = part (V c main_v2) (V c main_v5) t.val s j := by
  have hN : t.val < 64 := lt_of_lt_of_eq t.isLt (show cfg0.N = 64 from N_0)
  have hb : ∀ p : Fin 65536, t.val * 65536 + p.val < 4194304 := fun p => by have := p.isLt; omega
  unfold tileStat part
  by_cases hj : j.val < 5
  · rw [if_pos hj, if_pos hj]
    refine Finset.sum_congr rfl fun p _ => ?_
    rw [blk0_apply V c t s p (hb p), blk1_apply V c t s p (hb p)]
    unfold labAt mskAt
    rw [dif_pos (hb p), dif_pos (hb p)]
  · rw [if_neg hj, if_neg hj]
    refine Finset.sum_congr rfl fun p _ => ?_
    rw [blk1_apply V c t s p (hb p)]
    unfold mskAt
    rw [dif_pos (hb p)]

/-- The zero table's entries. -/
theorem zero_apply (i : S8x6.Idx) : (k0_pay2 (F := Ideal)) i = 0 := by
  unfold k0_pay2
  show Ideal.ofBits .f32 0x00000000#32 = 0
  exact Ideal.ofBits_zero_f32

/-- The table after point `n`, at an entry: zero plus the contributions of tiles `0 … n`, in point order. -/
theorem outsAt_apply (c : Dev nD) : ∀ (n : ℕ) (hn : n < cfg0.N) (s : Fin 8) (j : Fin 6),
    outsAt0 V c n hn (ix2 s j) = 0 + ∑ t ∈ Finset.range (n + 1), part (V c main_v2) (V c main_v5) t s j
  | 0, hn, s, j => by
    rw [outsAt0_A V c ⟨0, hn⟩ rfl, out_A, pay1_apply, tileStat_blk, zero_apply, Finset.sum_range_one]
  | n + 1, hn, s, j => by
    have hN : cfg0.N = 64 := N_0
    have hB : ¬(⟨n + 1, hn⟩ : Fin cfg0.N).val % 64 = 0 := by dsimp only; omega
    rw [outsAt0_B V c ⟨n + 1, hn⟩ hB, out_B, pay1_apply, tileStat_blk]
    show outsAt0 V c n _ (ix2 s j) + _ = _
    rw [outsAt_apply c n, Finset.sum_range_succ _ (n + 1), add_assoc]

/-- A sum over `m · n` consecutive numbers, tile by tile. -/
theorem sum_tiles {β : Type*} [AddCommMonoid β] (m n : ℕ) (g : ℕ → β) :
    ∑ q : Fin (m * n), g q.val = ∑ a : Fin m, ∑ b : Fin n, g (a.val * n + b.val) := by
  rw [← finProdFinEquiv.sum_comp, Fintype.sum_prod_type]
  refine Finset.sum_congr rfl fun a _ => Finset.sum_congr rfl fun b _ => congrArg g ?_
  show b.val + n * a.val = a.val * n + b.val
  rw [Nat.mul_comm, Nat.add_comm]

/-- The 64 tiles of 65,536 voxels make up the slab's 4,194,304. -/
theorem sum_slab (g : ℕ → EReal) :
    ∑ t ∈ Finset.range 64, ∑ p : Fin 65536, g (t * 65536 + p.val) = ∑ q : Fin 4194304, g q.val := by
  rw [Finset.sum_range]
  exact (sum_tiles 64 65536 g).symm

/-- After the last point the table is the statistics table of the two slab arrays. -/
theorem last_eq (c : Dev nD) (n : ℕ) (hn : n < cfg0.N) (h63 : n = 63) :
    outsAt0 V c n hn = Cert.Spec.stats (V c main_v2) (V c main_v5) := by
  subst h63
  funext i
  obtain ⟨s, j, rfl⟩ : ∃ (s : Fin 8) (j : Fin 6), i = ix2 s j := ⟨i 0, i 1, eq_ix2 i⟩
  rw [outsAt_apply V c 63 hn s j, zero_add]
  show _ = if j.val < 5 then Cert.Spec.cnt (V c main_v2) (V c main_v5) s j.val else Cert.Spec.msum (V c main_v5) s
  by_cases hj : j.val < 5
  · refine ((Finset.sum_congr rfl fun t _ => (if_pos hj : part (V c main_v2) (V c main_v5) t s j = _)).trans ?_).trans (if_pos hj).symm
    refine (sum_slab fun q => Cert.Spec.pos (mskAt (V c main_v5) s q) * Cert.Spec.hit (labAt (V c main_v2) s q) j.val).trans ?_
    unfold Cert.Spec.cnt
    refine Finset.sum_congr rfl fun q _ => ?_
    unfold mskAt labAt
    rw [dif_pos q.isLt, dif_pos q.isLt]
  · refine ((Finset.sum_congr rfl fun t _ => (if_neg hj : part (V c main_v2) (V c main_v5) t s j = _)).trans ?_).trans (if_neg hj).symm
    refine (sum_slab fun q => mskAt (V c main_v5) s q).trans ?_
    unfold Cert.Spec.msum
    refine Finset.sum_congr rfl fun q _ => ?_
    unfold mskAt
    rw [dif_pos q.isLt]

/-- The table window's block index is `(0, 0)` at every point. -/
theorem idx2 : ∀ (t : Fin grid0.N) (a : Fin 2), win0_2.index t a = 0 := by decide +kernel
/-- The table window's block is the whole 8 by 6 table at every point. -/
theorem xsize2 : ∀ t : Fin grid0.N, win0_2.xsize (grid0.coords t) 0 = 8 ∧ win0_2.xsize (grid0.coords t) 1 = 6 := by decide +kernel

/-- The one write-back, at the last point, writes the statistics table: the block is the whole array. -/
theorem flushed_eq (c : Dev nD) (t : Fin cfg0.N) (hf : (cfg0.win 2).flush t = true) :
    (dat0 V c).flushed 2 t = ((cfg0.win 2).blk t).view.read (Elt Ideal) (Cert.Spec.stats (V c main_v2) (V c main_v5)) := by
  have hN : cfg0.N = 64 := N_0
  have h63 : t.val = 63 := by have := (flush0_2 t).mp hf; have := t.isLt; omega
  show (cfg0.win 2).cut (grid0.coords t) ((dat0 V c).after 2 t) = _
  rw [after0_2, last_eq V c t.val t.isLt h63]
  have hz' : (fun a => win0_2.index t a * main_v6.ty.shape.size a) = fun _ => 0 :=
    funext fun a => by rw [idx2 t a]; exact Nat.zero_mul _
  exact (Memref.read_access_unit_zero (Elt Ideal) main_v6 hz' (fun a => by rw [congrFun hz' a]; simp) _).symm

/-- The last grid point. -/
abbrev tLast : Fin cfg0.N := ⟨63, lt_of_lt_of_eq (by decide : 63 < 64) (show cfg0.N = 64 from N_0).symm⟩

/-- The statistics array after the first pass, as a function of the two slab arrays the pass was entered with. -/
theorem hist_final (c : Dev nD) :
    (dat0 (F := Ideal) V c).arrAt 2 cfg0.N = Cert.Spec.stats (V c main_v2) (V c main_v5) :=
  (dat0 V c).arrAt_eq_of_cover 2 (Cert.Spec.stats (V c main_v2) (V c main_v5)) (flushed_eq V c) fun i =>
    ⟨tLast, (flush0_2 tLast).mpr rfl, by
      show i ∈ ((View.whole main_v6).slice (win0_2.rect tLast)).set
      rw [View.set_slice_whole, Rect.mem_set_unit]
      intro a
      have h0 : (i 0 : Nat) < 8 := (i 0).isLt
      have h1 : (i 1 : Nat) < 6 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [idx2 tLast 0, (xsize2 tLast).1]; omega
      | ⟨1, _⟩ =>
        show win0_2.index tLast 1 * win0_2.size 1 ≤ (i 1 : Nat) ∧ (i 1 : Nat) < win0_2.index tLast 1 * win0_2.size 1 + win0_2.xsize (grid0.coords tLast) 1
        rw [idx2 tLast 1, (xsize2 tLast).2]; omega⟩

end Cert.KernelIdeal.HistValue

end
-- ==== Proof.Out.lean ====
/-
  The second pass's result: every voxel of the slab layout ends at its mask value times the weight of its class in its slab, formed as the five class indicators times the slab's five weights added in class order.
-/
import proofs.«419271_j77180562309196_1_alg».proof.Proof.Gen.KernelIdeal.Frame
import proofs.«419271_j77180562309196_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.OutValue

open Cert.KernelIdeal Cert.KernelIdeal.Gen

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- A column of the weight table spread along the voxel axis reads, at voxel `(s, p)`, the table at `(s, k)`. -/
theorem col_read (off : Fin 2 → Nat) (w : S8x5.Idx → EReal) (hs : S8x5.Slices off S8x1) (hb : S8x1.Broadcasts S8x65536)
    (k : Fin 5) (h0 : off 0 = 0) (h1 : off 1 = k.val) (s : Fin 8) (p : Fin 65536) :
    broadcastTo S8x65536 (extractStridedSlice S8x1 off w hs) hb (ix2 s p) = w (ix2 s k) := by
  refine (broadcastTo_apply _ hb (ix2 s p) (ix2 s (0 : Fin 1)) ?_).trans ?_
  · intro a
    match a with
    | ⟨0, _⟩ => rfl
    | ⟨1, _⟩ => rfl
  · refine extractStridedSlice_apply off w hs (ix2 s (0 : Fin 1)) (ix2 s k) ?_
    intro a
    match a with
    | ⟨0, _⟩ => show s.val = off 0 + s.val; omega
    | ⟨1, _⟩ => show k.val = off 1 + 0; omega

/-- The class indicator as the pass forms it: the comparison bit widened and read as a number. -/
theorem ind_eq (l : BitVec 32) (k : ℕ) :
    FloatOps.sitofp (F := Ideal) .f32 ((IntOp.cmpi .eq l (BitVec.ofNat 32 k)).setWidth 32) = Cert.Spec.hit l k := by
  unfold Cert.Spec.hit IntOp.cmpi
  by_cases h : l = BitVec.ofNat 32 k
  · rw [if_pos h]; subst h; simp [FloatOps.sitofp]
  · rw [if_neg h]
    have hb : (l == BitVec.ofNat 32 k) = false := beq_eq_false_iff_ne.mpr h
    simp [FloatOps.sitofp, hb]

/-- An elementwise integer comparison read at an index. -/
theorem cmpi_apply' {S : Shape} {w : Nat} (pr : CmpIPredicate) (a b : IVec S w) (i : S.Idx) :
    cmpi pr a b i = IntOp.cmpi pr (a i) (b i) := rfl

/-- The weight of a voxel as the pass forms it, read at voxel `(s, p)` of a block. -/
theorem pay3_apply (x0 : Vec Ideal S8x65536 .i32) (x2 : Vec Ideal S8x5 .f32) (s : Fin 8) (p : Fin 65536) :
    k1_pay3 x0 x2 (ix2 s p) = Cert.Spec.look x2 (x0 (ix2 s p)) s := by
  have c0 := col_read ![0, 0] x2 slices_S8x5_o0_0_S8x1 broadcasts_S8x1_S8x65536 (0 : Fin 5) rfl rfl s p
  have c1 := col_read ![0, 1] x2 slices_S8x5_o0_1_S8x1 broadcasts_S8x1_S8x65536 (1 : Fin 5) rfl rfl s p
  have c2 := col_read ![0, 2] x2 slices_S8x5_o0_2_S8x1 broadcasts_S8x1_S8x65536 (2 : Fin 5) rfl rfl s p
  have c3 := col_read ![0, 3] x2 slices_S8x5_o0_3_S8x1 broadcasts_S8x1_S8x65536 (3 : Fin 5) rfl rfl s p
  have c4 := col_read ![0, 4] x2 slices_S8x5_o0_4_S8x1 broadcasts_S8x1_S8x65536 (4 : Fin 5) rfl rfl s p
  unfold k1_pay3 Cert.Spec.look
  simp only [shapeCast_self]
  simp only [addf_apply, mulf_apply, broadcast_apply, sitofp_apply, extui_apply, cmpi_apply']
  rw [c0, c1, c2, c3, c4, ind_eq, ind_eq, ind_eq, ind_eq, ind_eq, Ideal.ofBits_def, Ideal.ofBits_zero_f32]

/-- The block the pass leaves, read at voxel `(s, p)`: the mask value times the voxel's weight. -/
theorem out_apply (x0 : Vec Ideal S8x65536 .i32) (x1 : Vec Ideal S8x65536 .f32) (x2 : Vec Ideal S8x5 .f32) (s : Fin 8) (p : Fin 65536) :
    out1_3 x0 x1 x2 (ix2 s p) = x1 (ix2 s p) * Cert.Spec.look x2 (x0 (ix2 s p)) s := by
  unfold out1_3
  rw [View.canon_unit_zero hz]
  simp only [View.ld_unit_zero (S := S8x65536) hz, View.ld_unit_zero (S := S8x5) hz]
  unfold k1_pay1 k1_pay2
  simp only [shapeCast_self]
  rw [mulf_apply, pay3_apply]

/-- The block index maps over the grid: the two voxel inputs and the result move one block per point along
    the voxel axis, the weight table stays. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-- The label block at point `t` is voxels `65536 t … 65536 t + 65535` of every slab of the label array. -/
theorem lab_blk (c : Dev nD) (t : Fin cfg1.N) (y : S8x65536.Idx) (k : S8x4194304.Idx)
    (hk0 : (k 0).val = (y 0).val) (hk1 : (k 1).val = t.val * 65536 + (y 1).val) :
    (iblk1 V c 0 t : Vec Ideal S8x65536 .i32) y = (V c main_v2 : S8x4194304.Idx → BitVec 32) k := by
  obtain ⟨e0, e1, -⟩ := idx_facts t
  show (V c main_v2 : S8x4194304.Idx → BitVec 32) (((cfg1.win 0).blk t).view.emb y) = _
  refine congrArg _ (funext fun a => Fin.ext ?_)
  match a with
  | ⟨0, _⟩ => show win1_0.index t (0 : Fin 2) * 8 + 1 * (y 0).val = (k 0).val; rw [e0, hk0]; omega
  | ⟨1, _⟩ => show win1_0.index t (1 : Fin 2) * 65536 + 1 * (y 1).val = (k 1).val; rw [e1, hk1]; omega

/-- The mask block at point `t`, likewise. -/
theorem mask_blk (c : Dev nD) (t : Fin cfg1.N) (y : S8x65536.Idx) (k : S8x4194304.Idx)
    (hk0 : (k 0).val = (y 0).val) (hk1 : (k 1).val = t.val * 65536 + (y 1).val) :
    (iblk1 V c 1 t : Vec Ideal S8x65536 .f32) y = (V c main_v5 : S8x4194304.Idx → EReal) k := by
  obtain ⟨-, -, e0, e1, -⟩ := idx_facts t
  show (V c main_v5 : S8x4194304.Idx → EReal) (((cfg1.win 1).blk t).view.emb y) = _
  refine congrArg _ (funext fun a => Fin.ext ?_)
  match a with
  | ⟨0, _⟩ => show win1_1.index t (0 : Fin 2) * 8 + 1 * (y 0).val = (k 0).val; rw [e0, hk0]; omega
  | ⟨1, _⟩ => show win1_1.index t (1 : Fin 2) * 65536 + 1 * (y 1).val = (k 1).val; rw [e1, hk1]; omega

/-- The weight block at every point is the whole weight table. -/
theorem wt_blk (c : Dev nD) (t : Fin cfg1.N) :
    (iblk1 V c 2 t : Vec Ideal S8x5 .f32) = (V c main_v22 : S8x5.Idx → EReal) := by
  obtain ⟨-, -, -, -, e0, e1, -⟩ := idx_facts t
  funext y
  show (V c main_v22 : S8x5.Idx → EReal) (((cfg1.win 2).blk t).view.emb y) = _
  refine congrArg _ (funext fun a => Fin.ext ?_)
  match a with
  | ⟨0, _⟩ => show win1_2.index t (0 : Fin 2) * 8 + 1 * (y 0).val = (y 0).val; rw [e0]; omega
  | ⟨1, _⟩ => show win1_2.index t (1 : Fin 2) * 5 + 1 * (y 1).val = (y 1).val; rw [e1]; omega

/-- One voxel of a block against the result array: if the three blocks read the three arrays at the array index `k`
    under the block index `y`, what the pass leaves at `y` is the result at `k`. -/
theorem pt_eq (L : IVec Cert.Spec.SP 32) (M : FVec Ideal Cert.Spec.SP .f32) (W : FVec Ideal Cert.Spec.S85 .f32)
    (x0 : Vec Ideal S8x65536 .i32) (x1 : Vec Ideal S8x65536 .f32) (x2 : Vec Ideal S8x5 .f32)
    (s : Fin 8) (p : Fin 65536) (k : S8x4194304.Idx) (hk0 : (k 0).val = s.val)
    (h0 : x0 (ix2 s p) = L k) (h1 : x1 (ix2 s p) = M k) (h2 : x2 = W) :
    out1_3 x0 x1 x2 (ix2 s p) = Cert.Spec.outS L M W k := by
  subst h2
  rw [out_apply, h0, h1]
  have hs : (⟨(k 0).val, idx2_lt0 k⟩ : Fin 8) = s := Fin.ext hk0
  unfold Cert.Spec.outS
  rw [hs]

/-- What point `t` leaves in the result's buffer at voxel `y` of the block is the result array's value at the array
    index under `y`. -/
theorem after_pt (c : Dev nD) (t : Fin cfg1.N) (y : S8x65536.Idx) :
    out1_3 (iblk1 V c 0 t) (iblk1 V c 1 t) (iblk1 V c 2 t) y
      = Cert.Spec.outS (V c main_v2) (V c main_v5) (V c main_v22) (((cfg1.win 3).blk t).view.emb y) := by
  obtain ⟨-, -, -, -, -, -, e0, e1⟩ := idx_facts t
  have hk0 : ((((cfg1.win 3).blk t).view.emb y : S8x4194304.Idx) 0).val = (y 0).val := by
    show win1_3.index t (0 : Fin 2) * 8 + 1 * (y 0).val = (y 0).val; rw [e0]; omega
  have hk1 : ((((cfg1.win 3).blk t).view.emb y : S8x4194304.Idx) 1).val = t.val * 65536 + (y 1).val := by
    show win1_3.index t (1 : Fin 2) * 65536 + 1 * (y 1).val = _; rw [e1]; omega
  have hy : y = ix2 (y 0 : Fin 8) (y 1 : Fin 65536) := eq_ix2 y
  refine (congrArg (out1_3 (iblk1 V c 0 t) (iblk1 V c 1 t) (iblk1 V c 2 t)) hy).trans ?_
  exact pt_eq (V c main_v2) (V c main_v5) (V c main_v22) (iblk1 V c 0 t) (iblk1 V c 1 t) (iblk1 V c 2 t) (y 0) (y 1)
    (((cfg1.win 3).blk t).view.emb y) hk0
    (lab_blk V c t _ _ hk0 hk1) (mask_blk V c t _ _ hk0 hk1) (wt_blk V c t)

/-- What point `t` writes back is block `t` of the result array. -/
theorem flushed_eq (c : Dev nD) (t : Fin cfg1.N) :
    (dat1 (F := Ideal) V c).flushed 3 t
      = ((cfg1.win 3).blk t).view.read (Elt Ideal) (Cert.Spec.outS (V c main_v2) (V c main_v5) (V c main_v22)) := by
  show (cfg1.win 3).cut (grid1.coords t) ((dat1 V c).after 3 t) = _
  rw [after1_3]
  funext j
  exact after_pt V c t j

/-- An index of the array is in point `t`'s block iff each coordinate is in the block's range on its axis. -/
theorem mem_blk (t : Fin cfg1.N) (i : S8x4194304.Idx) :
    i ∈ ((cfg1.win 3).blk t).view.set ↔ ∀ a : Fin 2, win1_3.index t a * S8x65536.size a ≤ (i a).val
      ∧ (i a).val < win1_3.index t a * S8x65536.size a + S8x65536.size a := by
  show i ∈ ((View.whole main_v23).slice (win1_3.rect t)).set ↔ _
  rw [View.set_slice_whole, Rect.mem_set_unit]
  exact Iff.rfl

/-- Voxel column `q` of any slab is in the block of point `q / 65536`. -/
theorem cover (i : S8x4194304.Idx) :
    ∃ t : Fin cfg1.N, (cfg1.win 3).flush t = true ∧ i ∈ ((cfg1.win 3).blk t).view.set := by
  have hi0 : (i 0).val < 8 := (i 0).isLt
  have hi1 : (i 1).val < 4194304 := (i 1).isLt
  have hN : cfg1.N = 64 := N_1
  obtain ⟨t, ht⟩ : ∃ t : Fin cfg1.N, t.val = (i 1).val / 65536 := ⟨⟨(i 1).val / 65536, by rw [hN]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 8 ≤ (i 0).val ∧ (i 0).val < win1_3.index t (0 : Fin 2) * 8 + 8
    rw [e0]; omega
  | ⟨1, _⟩ =>
    show win1_3.index t (1 : Fin 2) * 65536 ≤ (i 1).val ∧ (i 1).val < win1_3.index t (1 : Fin 2) * 65536 + 65536
    rw [e1, ht]; omega

/-- The result array after the second pass, as a function of the three arrays the pass was entered with. -/
theorem out_final (c : Dev nD) :
    (dat1 (F := Ideal) V c).arrAt 3 cfg1.N = Cert.Spec.outS (V c main_v2) (V c main_v5) (V c main_v22) :=
  (dat1 V c).arrAt_eq_of_cover 3 _ (fun t _ => flushed_eq V c t) cover

end Cert.KernelIdeal.OutValue

end
-- ==== Proof.KernelValue.lean ====
/-
  The kernel program's run with its result named: the volume of mask value times the weight of the voxel's label in its
  slab, the weights `wts` of the statistics table's columns — put together from the two passes' values and the host
  operations between and around them.
-/
import proofs.«419271_j77180562309196_1_alg».proof.Proof.KernelRun
import proofs.«419271_j77180562309196_1_alg».proof.Proof.HostFold
import proofs.«419271_j77180562309196_1_alg».proof.Proof.Hist
import proofs.«419271_j77180562309196_1_alg».proof.Proof.Out

noncomputable section

open Idealize.ShloMosaic Idealize.ShloMosaic.TcCoe Idealize.SL.Sem

namespace Cert.Spec

/-- The result as one function of the two argument volumes. -/
def result (x0 : IVec SVol 32) (x1 : FVec Ideal SVol .f32) : FVec Ideal SVol .f32 :=
  fromSlabs (outS (toSlabs x0) (toSlabs x1)
    (wts (F := Ideal) (countsOf (stats (toSlabs x0) (toSlabs x1))) (msumOf (stats (toSlabs x0) (toSlabs x1)))))

end Cert.Spec

namespace Cert.KernelIdeal.KernelValue

open Cert.KernelIdeal Cert.KernelIdeal.Gen

variable (m : (ℓ : Loc nD τ sig) → Buf (Elt Ideal) ℓ) (ρ : Dev nD → PrngReg)

/-- The result buffer at the end of @main, as a function of the arguments. -/
theorem final_eq (c : Dev nD) :
    W11 m ρ c (Proc.devRef .tc main_v26)
      = Cert.Spec.result (m ((c : Thread nD τ).loc main_arg0)) (m ((c : Thread nD τ).loc main_arg1)) := by
  rw [Cert.KernelIdeal.Fold.W11_v26 m ρ c, Cert.KernelIdeal.OutValue.out_final (V9 m ρ) c,
    Cert.KernelIdeal.Fold.V9_v22 m ρ c, Cert.KernelIdeal.HistValue.hist_final (V1 m ρ) c,
    Cert.KernelIdeal.Fold.V9_v2 m ρ c, Cert.KernelIdeal.Fold.V9_v5 m ρ c,
    Cert.KernelIdeal.Fold.V1_v2 m ρ c, Cert.KernelIdeal.Fold.V1_v5 m ρ c]
  rfl

/-- Every weakly fair execution of the kernel program ends with the result buffer at `result` of the arguments and the
    arguments unchanged. -/
theorem run : θ_run defs (onTc (τ := τ) (main (F := Ideal))) ⟨m, fun _ => 0, ρ⟩ (fun r => ∀ c : Dev nD,
      r.2.mem ((c.tc : Thread nD τ).loc main_v26)
        = Cert.Spec.result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_eq m ρ c), (h c).2⟩)
    (Cert.KernelIdeal.GenRun.run_result (F := Ideal) m ρ)

end Cert.KernelIdeal.KernelValue

end
-- ==== Proof.RefFold.lean ====
/-
  The reference's run read to its last stage: the fold of @main's operations at the result buffer is the re-layout of
  (mask slab array × per-voxel weight), and at the two argument buffers it is the arguments. The per-voxel weight is a select
  of an in-bounds flag, a gather and a fill, each read on its own first and then put together, and so is the product.
-/
import proofs.«419271_j77180562309196_1_alg».proof.Proof.RefRead

noncomputable section

namespace Cert.ReferenceIdeal.RefFold

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

open Lean.Parser.Tactic in
/-- The fold through the operation list evaluated in one pass, at the goal or at hypotheses. -/
local macro "eval_fold" loc:(location)? : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf, TRef.toBuf, cast_eq, id_eq] $[$loc]?)

set_option maxRecDepth 8192 in
set_option maxHeartbeats 1000000 in
theorem fold_flag (V : Valuation τ sig (Elt F)) :
    after ops V (main_call3_v12 : DevRef τ sig) = val_main_call3_v12 (F := F) (V (main_arg0 : DevRef τ sig)) := by
  after_results_simp
  simp only [TRef.ofBuf, TRef.toBuf, cast_eq, id_eq]
  rfl

set_option maxRecDepth 8192 in
set_option maxHeartbeats 1000000 in
theorem fold_gather (V : Valuation τ sig (Elt F)) :
    after ops V (main_call3_v13 : DevRef τ sig)
      = val_main_call3_v13 (F := F) (V (main_arg0 : DevRef τ sig)) (V (main_arg1 : DevRef τ sig)) := by
  after_results_simp
  simp only [TRef.ofBuf, TRef.toBuf, cast_eq, id_eq]
  rfl

set_option maxRecDepth 8192 in
set_option maxHeartbeats 1000000 in
theorem fold_mask (V : Valuation τ sig (Elt F)) :
    after ops V (main_v5 : DevRef τ sig) = val_main_v5 (F := F) (V (main_arg1 : DevRef τ sig)) := by
  after_results_simp
  rfl

set_option maxRecDepth 8192 in
set_option maxHeartbeats 1000000 in
theorem fold_weight (V : Valuation τ sig (Elt F)) :
    after ops V (main_v35 : DevRef τ sig)
      = val_main_v35 (F := F) (V (main_arg0 : DevRef τ sig)) (V (main_arg1 : DevRef τ sig)) := by
  have h12 := fold_flag V
  have h13 := fold_gather V
  eval_fold at h12 h13 ⊢
  rw [h12, h13]
  rfl

set_option maxRecDepth 8192 in
set_option maxHeartbeats 1000000 in
theorem fold_product (V : Valuation τ sig (Elt F)) :
    after ops V (main_v36 : DevRef τ sig)
      = val_main_v36 (F := F) (V (main_arg0 : DevRef τ sig)) (V (main_arg1 : DevRef τ sig)) := by
  have h5 := fold_mask V
  have h35 := fold_weight V
  eval_fold at h5 h35 ⊢
  exact congr (congrArg mulf h5) h35

set_option maxRecDepth 8192 in
set_option maxHeartbeats 1000000 in
/-- The fold at the result buffer is the last stage of the arguments' contents. -/
theorem fold_result (V : Valuation τ sig (Elt F)) :
    after ops V (main_v39 : DevRef τ sig)
      = val_main_v39 (F := F) (V (main_arg0 : DevRef τ sig)) (V (main_arg1 : DevRef τ sig)) := by
  have h36 := fold_product V
  eval_fold at h36 ⊢
  exact congrArg (fun y : FVec F S8x4194304 .f32 =>
    shapeCast S4x128x256x256 (transpose S4x1x2x64x1x256x1x256 [0, 4, 1, 5, 2, 6, 3, 7]
      (shapeCast S4x2x1x1x1x64x256x256 y shapeCasts_S8x4194304_S4x2x1x1x1x64x256x256)
      transposes_S4x2x1x1x1x64x256x256_S4x1x2x64x1x256x1x256_0_4_1_5_2_6_3_7)
      shapeCasts_S4x1x2x64x1x256x1x256_S4x128x256x256) h36

set_option maxRecDepth 8192 in
set_option maxHeartbeats 1000000 in
/-- No operation writes an argument buffer. -/
theorem fold_arg0 (V : Valuation τ sig (Elt F)) : after ops V (main_arg0 : DevRef τ sig) = V (main_arg0 : DevRef τ sig) := by
  eval_fold

set_option maxRecDepth 8192 in
set_option maxHeartbeats 1000000 in
theorem fold_arg1 (V : Valuation τ sig (Elt F)) : after ops V (main_arg1 : DevRef τ sig) = V (main_arg1 : DevRef τ sig) := by
  eval_fold

end Cert.ReferenceIdeal.RefFold

end
-- ==== Proof.RefCounts.lean ====
/-
  The reference's statistics read: its scatter-add of the positive-mask indicators over the flat index 5·slab + label leaves, at (slab s, class k), the number of voxels of slab s with label k and positive mask; its row sum of the mask slab array is the slab's mask sum.
-/
import proofs.«419271_j77180562309196_1_alg».proof.Proof.RefRead
import proofs.«419271_j77180562309196_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open Idealize.ShloMosaic Idealize.ShloMosaic.TcCoe Idealize.SL.Sem Idealize.ShloMosaic.ValueIdx
open scoped BigOperators

namespace Cert.ReferenceIdeal.RefCounts

open Cert.ReferenceIdeal Cert.ReferenceIdeal.Gen Cert.ReferenceIdeal.ReadP

/-- An update lands at entry `i` exactly when, on every axis, its window start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    by_cases hh : ∀ a, 0 ≤ d.start j idx a + d.window j a ∧ d.start j idx a + d.window j a < s.size a
    · rw [dif_pos hh] at h
      intro a
      have hv : (d.start j idx a + (d.window j a : Int)).toNat = (i a).val := congrArg Fin.val (congrFun (Option.some.inj h) a)
      have := (hh a).1
      omega
    · rw [dif_neg hh] at h
      exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    show (d.start j idx a + (d.window j a : Int)).toNat = (i a).val
    have := h a; omega

/-- The reference's scatter: one index word per update, naming an entry of the 40-entry table. -/
abbrev dS := scatter_S40_S33554432x1_S33554432_n_0_0_1

/-- This scatter's window start on its one axis: the index word of the update's row, read signed. -/
theorem start_eq (idx : IVec S33554432x1 32) (j : S33554432.Idx) (a : Fin 1) :
    dS.start j idx a = (idx (ix2 ⟨(j 0).val, (j 0).isLt⟩ (0 : Fin 1))).toInt := by
  obtain rfl : a = 0 := Subsingleton.elim _ _
  unfold ScatterDims.start
  rw [dif_pos (by decide)]
  refine congrArg (fun y => (idx y).toInt) ?_
  funext b
  match b with
  | ⟨0, _⟩ => exact Fin.ext rfl
  | ⟨1, _⟩ => exact Fin.ext rfl

/-- This scatter has no window axis: the window coordinate is zero. -/
theorem window_eq (j : S33554432.Idx) (a : Fin 1) : dS.window j a = 0 := by
  obtain rfl : a = 0 := Subsingleton.elim _ _
  unfold ScatterDims.window
  rw [dif_neg (by decide)]

/-- Where update `j` lands: at the entry its index word names. -/
theorem lands_iff (idx : IVec S33554432x1 32) (j : S33554432.Idx) (i : S40.Idx) :
    dS.resultIdx? j idx = some i ↔ (idx (ix2 ⟨(j 0).val, (j 0).isLt⟩ (0 : Fin 1))).toInt = ((i 0).val : Int) := by
  rw [resultIdx?_eq_some_iff]
  constructor
  · intro h
    have := h 0
    rw [start_eq idx j 0, window_eq j 0] at this
    simpa using this
  · intro h a
    obtain rfl : a = 0 := Subsingleton.elim _ _
    rw [start_eq idx j 0, window_eq j 0]
    simpa using h

/-- The scatter-add at an entry: what was there plus the updates whose index word names the entry. -/
theorem scatter_apply (x : FVec Ideal S40 .f32) (idx : IVec S33554432x1 32) (upd : FVec Ideal S33554432 .f32) (i : S40.Idx) :
    Host.scatterAdd dS x idx upd i
      = x i + ∑ j : S33554432.Idx, if (idx (ix2 ⟨(j 0).val, (j 0).isLt⟩ (0 : Fin 1))).toInt = ((i 0).val : Int) then upd j else 0 := by
  simp only [Host.scatterAdd, Ideal.hostScatterAdd_def]
  unfold Ideal.hostScatterAdd
  rw [Finset.sum_filter]
  exact congrArg (x i + ·) (Finset.sum_congr rfl fun j _ => if_congr (lands_iff idx j i) rfl rfl)

/-- A sum over `m · n` consecutive numbers, row by row. -/
theorem sum_rows {β : Type*} [AddCommMonoid β] (m n : ℕ) (g : ℕ → β) :
    ∑ q : Fin (m * n), g q.val = ∑ a : Fin m, ∑ b : Fin n, g (a.val * n + b.val) := by
  rw [← finProdFinEquiv.sum_comp, Fintype.sum_prod_type]
  refine Finset.sum_congr rfl fun a _ => Finset.sum_congr rfl fun b _ => congrArg g ?_
  show b.val + n * a.val = a.val * n + b.val
  rw [Nat.mul_comm, Nat.add_comm]

/-- The flat positions, one by one. -/
def flatEquiv : S33554432.Idx ≃ Fin 33554432 where
  toFun j := ⟨(j 0).val, (j 0).isLt⟩
  invFun q := ix1 q
  left_inv j := (eq_ix1 j).symm
  right_inv q := rfl

/-- Slab `a`'s voxel `b` has a flat position below 33,554,432. -/
theorem flat_lt (a : Fin 8) (b : Fin 4194304) : a.val * 4194304 + b.val < 33554432 := by
  have := a.isLt; have := b.isLt; omega

/-- A function of the flat position, as a function of the position's number (zero past the end). -/
def atFlat {β : Type*} [Zero β] (f : S33554432.Idx → β) (n : ℕ) : β :=
  if h : n < 33554432 then f (ix1 ⟨n, h⟩) else 0

/-- Below the end it is the function at that position. -/
theorem atFlat_of_lt {β : Type*} [Zero β] (f : S33554432.Idx → β) (n : ℕ) (h : n < 33554432) :
    atFlat f n = f (ix1 ⟨n, h⟩) := dif_pos h

/-- A sum over the flat positions of the 8 slabs of 4,194,304 voxels, slab by slab. -/
theorem sum_flat {β : Type*} [AddCommMonoid β] (f : S33554432.Idx → β) :
    ∑ j, f j = ∑ a : Fin 8, ∑ b : Fin 4194304, f (ix1 ⟨a.val * 4194304 + b.val, flat_lt a b⟩) := by
  have h1 : ∑ j, f j = ∑ q : Fin 33554432, atFlat f q.val := by
    rw [← flatEquiv.symm.sum_comp]
    refine Finset.sum_congr rfl fun q _ => ?_
    show f (ix1 q) = atFlat f q.val
    exact (atFlat_of_lt f q.val q.isLt).symm
  rw [h1]
  refine (sum_rows 8 4194304 (atFlat f)).trans ?_
  refine Finset.sum_congr rfl fun a _ => Finset.sum_congr rfl fun b _ => ?_
  exact atFlat_of_lt f _ (flat_lt a b)

/-- The index word at flat position `a · 4194304 + b`: five times the slab number plus the voxel's label. -/
theorem idxword_eq (x0 : (⟨S4x128x256x256, .i32⟩ : BufTy).Contents (Elt Ideal)) (a : Fin 8) (b : Fin 4194304)
    (h : a.val * 4194304 + b.val < 33554432) (u : Fin 1) :
    val_main_v18 (F := Ideal) x0 (ix2 ⟨a.val * 4194304 + b.val, h⟩ u)
      = BitVec.ofNat 32 a.val * 5#32 + val_main_v2 (F := Ideal) x0 (ix2 a b) := by
  have hb := b.isLt
  have hidx : idx_main_v15 (idx_main_v18 (ix2 (⟨a.val * 4194304 + b.val, h⟩ : Fin 33554432) u)) = ix2 a b := by
    funext c
    match c with
    | ⟨0, _⟩ => exact Fin.ext (by show (a.val * 4194304 + b.val) / 4194304 = a.val; omega)
    | ⟨1, _⟩ => exact Fin.ext (by show (a.val * 4194304 + b.val) % 4194304 = b.val; omega)
  rw [val_main_v18_apply, val_main_v15_apply, hidx, val_main_v14_apply, val_main_v13_apply, val_main_v12_apply,
    val_main_v10_apply, val_main_v9_apply, val_main_v11_apply, val_main_c_apply]
  rfl

/-- The index word read signed: no wrap, since slab numbers are below 8 and labels below 5. -/
theorem idxword_toInt (a : ℕ) (l : BitVec 32) (ha : a < 8) (hl : l.toNat < 5) :
    (BitVec.ofNat 32 a * 5#32 + l).toInt = ((5 * a + l.toNat : ℕ) : Int) := by
  have hn : (BitVec.ofNat 32 a * 5#32 + l).toNat = 5 * a + l.toNat := by
    simp only [BitVec.toNat_add, BitVec.toNat_mul, BitVec.toNat_ofNat, Nat.reducePow, Nat.reduceMod]
    omega
  rw [Idealize.ShloMosaic.StableHlo.Predicate.toInt_eq_toNat_of_lt (by rw [hn]; omega), hn]

/-- A bit read unsigned and converted: `1` for true, `0` for false. -/
theorem uitofp_bit (p : Bool) :
    FloatOps.uitofp (F := Ideal) .f32 (BitVec.ofBool p) = if p then (1 : EReal) else 0 := by
  show ((((BitVec.ofBool p).toNat : ℕ) : ℝ) : EReal) = _
  cases p
  · rw [show (BitVec.ofBool false).toNat = 0 from by decide]; simp
  · rw [show (BitVec.ofBool true).toNat = 1 from by decide]; simp

/-- The update at flat position `a · 4194304 + b`: the positive-mask indicator of the voxel. -/
theorem upd_eq (x1 : (⟨S4x128x256x256, .f32⟩ : BufTy).Contents (Elt Ideal)) (a : Fin 8) (b : Fin 4194304)
    (h : a.val * 4194304 + b.val < 33554432) :
    val_main_v16 (F := Ideal) x1 (ix1 ⟨a.val * 4194304 + b.val, h⟩) = Cert.Spec.pos (val_main_v5 (F := Ideal) x1 (ix2 a b)) := by
  have hb := b.isLt
  have hidx : idx_main_v16 (ix1 (⟨a.val * 4194304 + b.val, h⟩ : Fin 33554432)) = ix2 a b := by
    funext c
    match c with
    | ⟨0, _⟩ => exact Fin.ext (by show (a.val * 4194304 + b.val) / 4194304 = a.val; omega)
    | ⟨1, _⟩ => exact Fin.ext (by show (a.val * 4194304 + b.val) % 4194304 = b.val; omega)
  rw [val_main_v16_apply, hidx, val_main_v8_apply, val_main_v7_apply, val_main_v6_apply, val_main_cst_apply]
  show FloatOps.uitofp (F := Ideal) .f32 (Ideal.cmp .ogt (val_main_v5 (F := Ideal) x1 (ix2 a b)) (Ideal.ofBits .f32 0x00000000#32)) = _
  rw [Ideal.ofBits_zero_f32]
  unfold Ideal.cmp Cert.Spec.pos
  rw [uitofp_bit]
  by_cases hp : (0 : EReal) < val_main_v5 (F := Ideal) x1 (ix2 a b)
  · simp [hp]
  · simp [hp]

/-- A label word below 5 is class `k` exactly when its value is `k`. -/
theorem label_iff (l : BitVec 32) (k : Fin 5) : l.toNat = k.val ↔ l = BitVec.ofNat 32 k.val := by
  have hk : k.val % 2 ^ 32 = k.val := Nat.mod_eq_of_lt (by have := k.isLt; omega)
  constructor
  · intro h
    exact BitVec.eq_of_toNat_eq (by rw [BitVec.toNat_ofNat, hk]; exact h)
  · intro h
    rw [h, BitVec.toNat_ofNat, hk]

/-- One flat position's term of the scatter sum at entry (s, k): the voxel's positive-mask indicator when the voxel is in
    slab `s` with label `k`, zero otherwise. -/
theorem term_eq (x0 : (⟨S4x128x256x256, .i32⟩ : BufTy).Contents (Elt Ideal)) (x1 : (⟨S4x128x256x256, .f32⟩ : BufTy).Contents (Elt Ideal))
    (hL : ∀ j, (val_main_v2 (F := Ideal) x0 j).toNat < 5) (s : Fin 8) (k : Fin 5) (a : Fin 8) (b : Fin 4194304) :
    (if (val_main_v18 (F := Ideal) x0 (ix2 (⟨a.val * 4194304 + b.val, flat_lt a b⟩ : Fin 33554432) (0 : Fin 1))).toInt = ((s.val * 5 + k.val : ℕ) : Int)
      then val_main_v16 (F := Ideal) x1 (ix1 (⟨a.val * 4194304 + b.val, flat_lt a b⟩ : Fin 33554432)) else 0)
      = if a = s then Cert.Spec.pos (val_main_v5 (F := Ideal) x1 (ix2 a b)) * Cert.Spec.hit (val_main_v2 (F := Ideal) x0 (ix2 a b)) k.val else 0 := by
  have hl := hL (ix2 a b)
  have hk := k.isLt
  have hcond : (val_main_v18 (F := Ideal) x0 (ix2 (⟨a.val * 4194304 + b.val, flat_lt a b⟩ : Fin 33554432) (0 : Fin 1))).toInt = ((s.val * 5 + k.val : ℕ) : Int)
      ↔ (a = s ∧ val_main_v2 (F := Ideal) x0 (ix2 a b) = BitVec.ofNat 32 k.val) := by
    rw [← label_iff, idxword_eq x0 a b (flat_lt a b) 0, idxword_toInt a.val _ a.isLt hl]
    constructor
    · intro h
      exact ⟨Fin.ext (by omega), by omega⟩
    · rintro ⟨rfl, h2⟩
      omega
  rw [if_congr hcond rfl rfl, upd_eq x1 a b (flat_lt a b)]
  unfold Cert.Spec.hit
  by_cases has : a = s
  · by_cases hlk : val_main_v2 (F := Ideal) x0 (ix2 a b) = BitVec.ofNat 32 k.val
    · rw [if_pos ⟨has, hlk⟩, if_pos has, if_pos hlk, mul_one]
    · rw [if_neg (fun h => hlk h.2), if_pos has, if_neg hlk, mul_zero]
  · rw [if_neg (fun h => has h.1), if_neg has]

/-- With every label a class, the reference's count table at (s, k) is slab s's count of class k among the
    voxels of positive mask. -/
theorem counts_eq (x0 : (⟨S4x128x256x256, .i32⟩ : BufTy).Contents (Elt Ideal)) (x1 : (⟨S4x128x256x256, .f32⟩ : BufTy).Contents (Elt Ideal))
    (hL : ∀ j, (val_main_v2 (F := Ideal) x0 j).toNat < 5) (s : Fin 8) (k : Fin 5) :
    val_main_v20 (F := Ideal) x0 x1 (ix2 s k)
      = Cert.Spec.cnt (val_main_v2 (F := Ideal) x0) (val_main_v5 (F := Ideal) x1) s k.val := by
  rw [val_main_v20_apply]
  unfold val_main_v19
  rw [scatter_apply, val_main_v17_apply, val_main_cst_0_apply, Ideal.ofBits_def, Ideal.ofBits_zero_f32, zero_add, sum_flat]
  refine (Finset.sum_congr rfl fun a _ => Finset.sum_congr rfl fun b _ => term_eq x0 x1 hL s k a b).trans ?_
  rw [Finset.sum_eq_single s (fun a _ hne => Finset.sum_eq_zero fun b _ => if_neg hne) (fun h => absurd (Finset.mem_univ s) h)]
  unfold Cert.Spec.cnt
  exact Finset.sum_congr rfl fun b _ => if_pos rfl

/-- The reference's mask sums: slab s's sum of mask values. -/
theorem msum_eq (x1 : (⟨S4x128x256x256, .f32⟩ : BufTy).Contents (Elt Ideal)) (s : Fin 8) :
    val_main_v21 (F := Ideal) x1 (ix1 s) = Cert.Spec.msum (val_main_v5 (F := Ideal) x1) s := by
  rw [val_main_v21_apply]
  show Ideal.ofBits .f32 0x00000000#32 + _ = _
  rw [Ideal.ofBits_zero_f32, zero_add]
  unfold Cert.Spec.msum
  refine Finset.sum_congr rfl fun p _ => congrArg (val_main_v5 (F := Ideal) x1) ?_
  funext a
  match a with
  | ⟨0, _⟩ => rfl
  | ⟨1, _⟩ => rfl

end Cert.ReferenceIdeal.RefCounts

end
-- ==== Proof.RefTake.lean ====
/-
  The reference's per-voxel weight read: with every label a class, taking along the class axis picks, at voxel (s, p), the weight table's entry at (s, label(s, p)) — the index needs no wrap-around, lies inside the table, and the gather reads exactly there.
-/
import proofs.«419271_j77180562309196_1_alg».proof.Proof.RefRead
import proofs.«419271_j77180562309196_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open Idealize.ShloMosaic Idealize.ShloMosaic.TcCoe Idealize.SL.Sem Idealize.ShloMosaic.ValueIdx
open scoped BigOperators

namespace Cert.ReferenceIdeal.RefTake

open Cert.ReferenceIdeal Cert.ReferenceIdeal.Gen Cert.ReferenceIdeal.ReadP

/-- The dimension numbers of a take along the second axis of a table `[R, K]` at indices `[R, C, 1]`: the first axis
    is a batch axis of table and indices alike, the second is collapsed and start-indexed, the index vector is the
    indices' last axis. -/
abbrev rowTakeDims (R C K : Nat)
    (wf : GatherDims.WF ⟨2, ![R, K]⟩ ⟨3, ![R, C, 1]⟩ ⟨2, ![R, C]⟩ [] [1] [0] [1] [0] 2 ![1, 1]) :
    GatherDims ⟨2, ![R, K]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- That gather read at `(s, p)`: the table's row `s` at the start index `idx[s, p, 0]`, read signed and clamped into
    `[0, K − 1]`. -/
theorem gather_rowtake_apply {α : Type} {R C K w : Nat} (hK : 0 < K)
    (wf : GatherDims.WF ⟨2, ![R, K]⟩ ⟨3, ![R, C, 1]⟩ ⟨2, ![R, C]⟩ [] [1] [0] [1] [0] 2 ![1, 1])
    (x : (⟨2, ![R, K]⟩ : Shape).Idx → α) (idx : IVec ⟨3, ![R, C, 1]⟩ w) (y : (⟨2, ![R, C]⟩ : Shape).Idx) :
    Host.gather (rowTakeDims R C K wf) x idx y
      = x (ix2 (⟨(y 0).val, idx2_lt0 y⟩ : Fin R) (⟨min (idx (takeIdx y)).toInt.toNat (K - 1), by omega⟩ : Fin K)) := by
  unfold Host.gather
  congr 1
  funext a
  refine Fin.ext ?_
  match a with
  | ⟨0, _⟩ =>
    show (rowTakeDims R C K wf).start y idx 0 + (rowTakeDims R C K wf).batchCoord y 0 + (rowTakeDims R C K wf).offCoord y 0 = (y 0).val
    have hb : (0 : Fin 2) ∈ (rowTakeDims R C K wf).operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show (rowTakeDims R C K wf).start y idx 1 + (rowTakeDims R C K wf).batchCoord y 1 + (rowTakeDims R C K wf).offCoord y 1
      = min (idx (takeIdx y)).toInt.toNat (K - 1)
    have hnb : (1 : Fin 2) ∉ (rowTakeDims R C K wf).operandBatchingDims :=
      fun h => absurd (List.mem_singleton.mp h) (by decide : ¬ ((1 : Fin 2) = 0))
    rw [GatherDims.batchCoord_eq_zero _ _ _ hnb,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims R C K wf).startIndexMap from List.mem_singleton.mpr rfl)]
    have hsi : (rowTakeDims R C K wf).siIdx y ⟨List.idxOf (1 : Fin 2) (rowTakeDims R C K wf).startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

open Idealize.ShloMosaic.StableHlo.Predicate in
/-- A class word is not negative: the signed comparison against zero is 0. -/
theorem slt_zero_of_small (l : BitVec 32) (h : l.toNat < 5) : IntOp.cmpi .slt l 0#32 = 0#1 :=
  eq_zero_of_ne_one fun e => by
    have := (slt_iff_toNat (a := l) (b := 0#32) (by omega) (by decide)).mp e
    simp at this

open Idealize.ShloMosaic.StableHlo.Predicate in
/-- A class word is at least zero, read signed. -/
theorem sge_zero_of_small (l : BitVec 32) (h : l.toNat < 5) : IntOp.cmpi .sge l 0#32 = 1#1 :=
  (sge_iff_toNat (a := l) (b := 0#32) (by omega) (by decide)).mpr (by simp)

open Idealize.ShloMosaic.StableHlo.Predicate in
/-- A class word is at most four, read signed. -/
theorem sle_four_of_small (l : BitVec 32) (h : l.toNat < 5) : IntOp.cmpi .sle l 4#32 = 1#1 :=
  (sle_iff_toNat (a := l) (b := 4#32) (by omega) (by decide)).mpr (by
    show l.toNat ≤ (4#32 : BitVec 32).toNat
    rw [show (4#32 : BitVec 32).toNat = 4 from by decide]; omega)

open Idealize.ShloMosaic.StableHlo.Predicate in
/-- A class word read signed and clamped into `[0, 4]` is its value. -/
theorem clamp_of_small (l : BitVec 32) (h : l.toNat < 5) : min l.toInt.toNat (5 - 1) = l.toNat := by
  rw [toInt_eq_toNat_of_lt (a := l) (by omega), Int.toNat_natCast]
  omega

/-- The index vector of voxel `j` sits at `j` of the index array. -/
theorem idx_v5_take (j : S8x4194304.Idx) : idx_main_call3_v5 (takeIdx j) = j := by
  funext a
  refine Fin.ext ?_
  have h0 : (j 0).val < 8 := (j 0).isLt
  have h1 : (j 1).val < 4194304 := (j 1).isLt
  match a with
  | ⟨0, _⟩ => show (((j 0).val * 4194304 + (j 1).val) * 1 + 0) / 4194304 = (j 0).val; omega
  | ⟨1, _⟩ => show (((j 0).val * 4194304 + (j 1).val) * 1 + 0) % 4194304 = (j 1).val; omega

section Chain
variable (x0 : (⟨S4x128x256x256, .i32⟩ : BufTy).Contents (Elt Ideal))
variable (hL : ∀ j, (val_main_v2 (F := Ideal) x0 j).toNat < 5)
include hL

/-- No index wraps around: the index array is the label array. -/
theorem v4_eq (k : S8x4194304.Idx) : val_main_call3_v4 (F := Ideal) x0 k = val_main_v2 (F := Ideal) x0 k := by
  rw [val_main_call3_v4_apply, val_main_call3_v1_apply, val_main_call3_v0_apply, val_main_call3_c_apply,
    slt_zero_of_small _ (hL k), select_zero]

/-- The index array as a column of index vectors. -/
theorem v5_eq (i : S8x4194304x1.Idx) :
    val_main_call3_v5 (F := Ideal) x0 i = val_main_v2 (F := Ideal) x0 (idx_main_call3_v5 i) := by
  rw [val_main_call3_v5_apply, v4_eq x0 hL]

/-- Every index lies inside the table. -/
theorem v11_one (i : S8x4194304x1.Idx) : val_main_call3_v11 (F := Ideal) x0 i = 1#1 := by
  rw [val_main_call3_v11_apply, val_main_call3_v7_apply, val_main_call3_v10_apply, v5_eq x0 hL,
    val_main_call3_v6_apply, val_main_call3_c_2_apply, val_main_call3_v9_apply, val_main_call3_v8_apply,
    val_main_call3_c_1_apply, sge_zero_of_small _ (hL _), sle_four_of_small _ (hL _)]
  decide

/-- So the in-bounds flag is set at every voxel. -/
theorem v12_one (j : S8x4194304.Idx) : val_main_call3_v12 (F := Ideal) x0 j = 1#1 := by
  unfold val_main_call3_v12
  refine (Host.reduce_eq_foldl _ _ _ _ _ j).trans ?_
  exact foldl_andi_one _ _ fun n _ => v11_one x0 hL n

end Chain

/-- With every label a class, the per-voxel weight at `j = (s, p)` is the weight table at (s, label j). -/
theorem take_eq (x0 : (⟨S4x128x256x256, .i32⟩ : BufTy).Contents (Elt Ideal)) (x1 : (⟨S4x128x256x256, .f32⟩ : BufTy).Contents (Elt Ideal))
    (hL : ∀ j, (val_main_v2 (F := Ideal) x0 j).toNat < 5) (j : S8x4194304.Idx) :
    val_main_v35 (F := Ideal) x0 x1 j
      = val_main_v34 (F := Ideal) x0 x1
          (ix2 (⟨(j 0).val, idx2_lt0 j⟩ : Fin 8) (⟨(val_main_v2 (F := Ideal) x0 j).toNat, hL j⟩ : Fin 5)) := by
  rw [val_main_v35_apply, v12_one x0 hL, select_one]
  show Host.gather (rowTakeDims 8 4194304 5 Facts₀.gather_S8x5_S8x4194304x1_S8x4194304_n_1_0_0_1_2_11_wf)
    (val_main_v34 (F := Ideal) x0 x1) (val_main_call3_v5 (F := Ideal) x0) j = _
  rw [gather_rowtake_apply (by decide)]
  refine congrArg _ (congrArg (ix2 _) (Fin.ext ?_))
  show min (val_main_call3_v5 (F := Ideal) x0 (takeIdx j)).toInt.toNat (5 - 1) = (val_main_v2 (F := Ideal) x0 j).toNat
  rw [v5_eq x0 hL, idx_v5_take]
  exact clamp_of_small _ (hL j)

end Cert.ReferenceIdeal.RefTake

end
-- ==== Proof.Bridge.lean ====
/-
  The two programs' values are one function of the arguments. Over the slab layout `L` (labels), `M` (mask):
  the reference's count table and mask sums are the count columns and the mask-sum column of the statistics table
  `stats L M`, so its weight table is `wts` of those columns, the kernel program's weight table; and with every label
  a class, the reference's take along the class axis picks at a voxel the weight its slab has for the voxel's label, which
  is what the indicator sum `look` leaves (`0 · w = 0` for the other four classes). Both lay the product back into the volume.
-/
import proofs.«419271_j77180562309196_1_alg».proof.Proof.RefRead
import proofs.«419271_j77180562309196_1_alg».proof.Proof.RefCounts
import proofs.«419271_j77180562309196_1_alg».proof.Proof.RefTake
import proofs.«419271_j77180562309196_1_alg».proof.Proof.Spec
import proofs.«419271_j77180562309196_1_alg».proof.Proof.Weights
import Idealize.ShloMosaic.Lib.ValueIdx
import Idealize.ShloMosaic.Lib.Pipeline.Value

noncomputable section

open Idealize.ShloMosaic Idealize.ShloMosaic.TcCoe Idealize.SL.Sem Idealize.ShloMosaic.ValueIdx
open scoped BigOperators

namespace Cert.ReferenceIdeal.Bridge

open Cert.ReferenceIdeal Cert.ReferenceIdeal.Gen Cert.ReferenceIdeal.ReadP

variable (x0 : (⟨S4x128x256x256, .i32⟩ : BufTy).Contents (Elt Ideal)) (x1 : (⟨S4x128x256x256, .f32⟩ : BufTy).Contents (Elt Ideal))

/-- The reference's slab arrays are the re-laid arguments. -/
theorem labels_slab : val_main_v2 (F := Ideal) x0 = Cert.Spec.toSlabs x0 := rfl
theorem mask_slab : val_main_v5 (F := Ideal) x1 = Cert.Spec.toSlabs x1 := rfl

/-- A count column of the statistics table read at (s, k). -/
theorem countsOf_apply (st : FVec Ideal Cert.Spec.S8x6 .f32) (s : Fin 8) (k : Fin 5) :
    Cert.Spec.countsOf st (ix2 s k) = st (ix2 s (⟨k.val, by omega⟩ : Fin 6)) := by
  unfold Cert.Spec.countsOf extractStridedSlice
  refine congrArg st (funext fun a => ?_)
  match a with
  | ⟨0, _⟩ => exact Fin.ext (by show 0 + s.val = s.val; omega)
  | ⟨1, _⟩ => exact Fin.ext (by show 0 + k.val = k.val; omega)

/-- The mask-sum column of the statistics table read at s. -/
theorem msumOf_apply (st : FVec Ideal Cert.Spec.S8x6 .f32) (s : Fin 8) :
    Cert.Spec.msumOf st (ix1 s) = st (ix2 s (5 : Fin 6)) := by
  unfold Cert.Spec.msumOf
  rw [shapeCast_apply _ _ (ix1 s) (ix2 s (0 : Fin 1))
    (by rw [Shape.rowMajor_val_two, Shape.rowMajor_val_one]; show s.val * 1 + 0 = s.val; omega)]
  unfold extractStridedSlice
  refine congrArg st (funext fun a => ?_)
  match a with
  | ⟨0, _⟩ => exact Fin.ext (by show 0 + s.val = s.val; omega)
  | ⟨1, _⟩ => exact Fin.ext (by show 5 + 0 = 5; rfl)

/-- The reference's count table is the count columns of the statistics table. -/
theorem counts_cols (hL : ∀ j, (val_main_v2 (F := Ideal) x0 j).toNat < 5) :
    val_main_v20 (F := Ideal) x0 x1 = Cert.Spec.countsOf (Cert.Spec.stats (Cert.Spec.toSlabs x0) (Cert.Spec.toSlabs x1)) := by
  funext i
  obtain ⟨s, k, rfl⟩ : ∃ (s : Fin 8) (k : Fin 5), i = ix2 s k := ⟨i 0, i 1, eq_ix2 i⟩
  rw [Cert.ReferenceIdeal.RefCounts.counts_eq x0 x1 hL s k, countsOf_apply]
  unfold Cert.Spec.stats
  have hk : k.val < 5 := k.isLt
  simp only [hk, if_true]
  rfl

/-- The reference's mask sums are the mask-sum column of the statistics table. -/
theorem msum_col :
    val_main_v21 (F := Ideal) x1 = Cert.Spec.msumOf (Cert.Spec.stats (Cert.Spec.toSlabs x0) (Cert.Spec.toSlabs x1)) := by
  funext i
  obtain ⟨s, rfl⟩ : ∃ s : Fin 8, i = ix1 s := ⟨i 0, eq_ix1 i⟩
  rw [Cert.ReferenceIdeal.RefCounts.msum_eq x1 s, msumOf_apply]
  unfold Cert.Spec.stats
  simp only [show ¬ ((5 : Fin 6).val < 5) from by decide, if_false]
  rfl

/-- The reference's weight table is `wts` of its count table and mask sums. -/
theorem weights_eq : val_main_v34 (F := Ideal) x0 x1
    = Cert.Spec.wts (F := Ideal) (val_main_v20 (F := Ideal) x0 x1) (val_main_v21 (F := Ideal) x1) := rfl

/-- The reference's result, with every label a class: the volume of mask value times the weight of the voxel's label in
    its slab, the weights `wts` of the statistics table's columns — the kernel program's function. -/
theorem result_eq (hL : ∀ i, (x0 i).toNat < 5) :
    val_main_v39 (F := Ideal) x0 x1
      = Cert.Spec.fromSlabs (Cert.Spec.outS (Cert.Spec.toSlabs x0) (Cert.Spec.toSlabs x1)
          (Cert.Spec.wts (Cert.Spec.countsOf (Cert.Spec.stats (Cert.Spec.toSlabs x0) (Cert.Spec.toSlabs x1)))
            (Cert.Spec.msumOf (Cert.Spec.stats (Cert.Spec.toSlabs x0) (Cert.Spec.toSlabs x1))))) := by
  have hS : ∀ j, (val_main_v2 (F := Ideal) x0 j).toNat < 5 := fun j => hL _
  show Cert.Spec.fromSlabs (val_main_v36 (F := Ideal) x0 x1) = _
  refine congrArg Cert.Spec.fromSlabs (funext fun j => ?_)
  rw [val_main_v36_apply, Cert.ReferenceIdeal.RefTake.take_eq x0 x1 hS j, weights_eq, counts_cols x0 x1 hS, msum_col x0 x1]
  unfold Cert.Spec.outS
  exact (congrArg (fun t => Cert.Spec.toSlabs x1 j * t)
    (Cert.Spec.look_eq _ (Cert.Spec.toSlabs x0 j) ⟨(j 0).val, idx2_lt0 j⟩ (hS j))).symm

end Cert.ReferenceIdeal.Bridge

end
-- ==== Proof.PreRead.lean ====
/-
  The precondition read: where it holds, every label word is one of the five classes (its value, read unsigned, is below 5).
-/
import proofs.«419271_j77180562309196_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Idealize.ShloMosaic Idealize.ShloMosaic.StableHlo.Predicate

/-- A word that is at least 0 and below 5 as a signed number is below 5 as a natural number. -/
theorem lt_five_of (l : BitVec 32) (h0 : IntOp.cmpi .sge l 0#32 = 1#1) (h5 : IntOp.cmpi .slt l 5#32 = 1#1) :
    l.toNat < 5 := by
  have hl : l.toNat < 2 ^ 31 := by
    unfold IntOp.cmpi at h0
    rw [ofBool_eq_one_iff] at h0
    simp only [BitVec.sle, decide_eq_true_eq] at h0
    have hc := BitVec.toInt_eq_toNat_cond l
    have h00 : (0#32 : BitVec 32).toInt = 0 := by decide
    rw [h00] at h0
    by_contra hge
    rw [if_neg (by omega)] at hc
    have := l.isLt
    omega
  exact (slt_iff_toNat hl (by decide)).mp h5

variable [Cert.Pre_finite_inputs.Facts]

instance : Subsingleton Cert.Pre_finite_inputs.S_.Idx := ⟨fun a b => funext fun d => d.elim0⟩

/-- Under the precondition every label is a class. -/
theorem labels_lt (x0 : IVec Cert.Pre_finite_inputs.S4x128x256x256 32) (x1 : FVec Ideal Cert.Pre_finite_inputs.S4x128x256x256 .f32)
    (h : Cert.Pre_finite_inputs.fn (F := Ideal) x0 x1 = fun _ => 1#1) (i : Cert.Pre_finite_inputs.S4x128x256x256.Idx) :
    (x0 i).toNat < 5 := by
  have h1 := congrFun h ValueIdx.ix0
  dsimp only [Cert.Pre_finite_inputs.fn] at h1
  obtain ⟨-, hb⟩ := IntOp.andi_eq_one.1 h1
  have hi := Host.reduce_andi_all _ _ _ _ _ hb i
  obtain ⟨h0, h5⟩ := IntOp.andi_eq_one.1 hi
  exact lt_five_of _ h0 h5

end Cert.PreRead

end
-- ==== Proof.lean ====
/-
  Balance weights by class frequency, per slab. The volume [4,128,256,256] is cut into 8 slabs of 4,194,304 voxels. Per slab s:
  for each of the 5 classes the number of voxels of that class whose mask value is positive, and the sum of the slab's mask
  values; the weight of class k in slab s is 0.2 / clip(count / mask sum, 0.05, 0.95) (the quotient taken as 0 where the mask
  sum is not positive); the result at a voxel is its mask value times the weight of its class in its slab.

  The kernel program does this in two passes over tiles of 65,536 voxels. The first accumulates the six statistics per slab
  tile by tile (`Hist.lean`: after the last tile the table holds the sums over the whole slab, a sum of tile sums being the
  sum over the slab). The second forms, per voxel, the five class indicators of its label times the slab's five weights and
  adds them onto zero (`Out.lean`); on the extended reals `0 · w = 0` whatever `w` is, so for a label in the class range the
  sum is that class's weight (`Spec.look_eq`). The reference counts by a scatter-add over the flat index 5·slab + label
  (`RefCounts.lean`: with labels in range the flat index decodes to its slab and class, so each bin is one slab's count of one
  class) and picks the weight by a take along the class axis (`RefTake.lean`: in range there is no wrap-around and no fill).
  The weights are the same host operations of the same statistics on both sides (`Weights.lean`, `Bridge.lean`), and both
  programs re-lay the volume into slabs and back by the same operations. The label range is the precondition's second
  conjunct (`PreRead.lean`); no law used here needs the mask to be finite.
-/
import proofs.«419271_j77180562309196_1_alg».proof.Defs
import proofs.«419271_j77180562309196_1_alg».proof.Proof.Gen.Kernel
import proofs.«419271_j77180562309196_1_alg».proof.Proof.Gen.Kernel.Skeleton
import proofs.«419271_j77180562309196_1_alg».proof.Proof.Gen.Kernel.Launch
import proofs.«419271_j77180562309196_1_alg».proof.Proof.Gen.Kernel.Points
import proofs.«419271_j77180562309196_1_alg».proof.Proof.Gen.Kernel.Frame
import proofs.«419271_j77180562309196_1_alg».proof.Proof.Gen.KernelIdeal
import proofs.«419271_j77180562309196_1_alg».proof.Proof.Gen.KernelIdeal.Skeleton
import proofs.«419271_j77180562309196_1_alg».proof.Proof.Gen.KernelIdeal.Launch
import proofs.«419271_j77180562309196_1_alg».proof.Proof.Gen.KernelIdeal.Points
import proofs.«419271_j77180562309196_1_alg».proof.Proof.Gen.KernelIdeal.Frame
import proofs.«419271_j77180562309196_1_alg».proof.Proof.Gen.ReferenceIdeal
import proofs.«419271_j77180562309196_1_alg».proof.Proof.Gen.Pre_finite_inputs
import proofs.«419271_j77180562309196_1_alg».proof.Proof.KernelValue
import proofs.«419271_j77180562309196_1_alg».proof.Proof.RefFold
import proofs.«419271_j77180562309196_1_alg».proof.Proof.Bridge
import proofs.«419271_j77180562309196_1_alg».proof.Proof.PreRead
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run leaves every buffer at the operations' fold, and no operation writes
    an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefFold.fold_arg0 _),
      (h c Cert.ReferenceIdeal.main_arg1).trans (Cert.ReferenceIdeal.RefFold.fold_arg1 _)⟩)
    (Cert.ReferenceIdeal.ValueP.run_fold (F := Ideal) m ρ)

/-- The ideal pass rewrote nothing. -/
theorem preserves : Cert.preserves_Kernel_KernelIdeal := trivial

/-- From memories agreeing on the arguments, with every label a class: both programs end with the result buffer at
    `Spec.result` of the arguments. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨?_,
      (h c Cert.ReferenceIdeal.main_arg0).trans (Cert.ReferenceIdeal.RefFold.fold_arg0 _),
      (h c Cert.ReferenceIdeal.main_arg1).trans (Cert.ReferenceIdeal.RefFold.fold_arg1 _)⟩)
    (Cert.ReferenceIdeal.ValueP.run_fold (F := Ideal) m' ρ')
  refine ((h c Cert.ReferenceIdeal.main_v39).trans (Cert.ReferenceIdeal.RefFold.fold_result _)).trans ?_
  show Cert.ReferenceIdeal.ReadP.val_main_v39 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]
  exact Cert.ReferenceIdeal.Bridge.result_eq _ _ (fun i => Cert.PreRead.labels_lt _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
